-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S800000 : Shape := ⟨1, ![800000]⟩
abbrev S64x64 : Shape := ⟨2, ![64, 64]⟩
abbrev S256x3 : Shape := ⟨2, ![256, 3]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S64x64 : S_.BroadcastsInDim S64x64 (![] : Fin 0 → Fin S64x64.rank)
  reducesTo_S64x64_S_d0_1 : S64x64.ReducesTo [0, 1] S_
  bcast_S_S256x3 : S_.BroadcastsInDim S256x3 (![] : Fin 0 → Fin S256x3.rank)
  reducesTo_S256x3_S_d0_1 : S256x3.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S256 .f32) (main_arg7 : FVec F S64x256 .f32) (main_arg8 : FVec F S64 .f32) (main_arg9 : FVec F S64 .f32) (main_v13 : IVec S_ 1) (main_v16 : IVec S256x3 1) : IVec S_ 1 :=
  let main_c_5 : IVec S_ 1 := constantI S_ 1 1#1
  let main_v17 : IVec S_ 1 := (fun x v => Host.reduce IntOp.andi x v reducesTo_S256x3_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S64x256 .f32 := Host.absf main_arg7
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_v33

def fn {F : FTy → Type} [FloatOps F] (main_arg0 : FVec F S50000x64 .f32) (main_arg1 : FVec F S50000x3 .f32) (main_arg2 : IVec S800000 32) (main_arg3 : IVec S800000 32) (main_arg4 : FVec F S64x64 .f32) (main_arg5 : FVec F S256x3 .f32) (main_arg6 : FVec F S256 .f32) (main_arg7 : FVec F S64x256 .f32) (main_arg8 : FVec F S64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S256x3 .f32 := Host.absf main_arg5
  let main_cst_4 : FVec F S_ .f32 := constant S_ .f32 0x7F800000#32
  let main_v15 : FVec F S256x3 .f32 := broadcastInDim S256x3 ![] bcast_S_S256x3 main_cst_4
  let main_v16 : IVec S256x3 1 := cmpf .olt main_v14 main_v15
  fn_part1 (F := F) main_arg6 main_arg7 main_arg8 main_arg9 main_v13 main_v16
-- ==== Kernel.lean ====
abbrev S50000x64 : Shape := ⟨2, ![50000, 64]⟩
abbrev S50000x3 : Shape := ⟨2, ![50000, 3]⟩
abbrev S800000 : Shape := ⟨1, ![800000]⟩
abbrev S64x64 : Shape := ⟨2, ![64, 64]⟩
abbrev S256x3 : Shape := ⟨2, ![256, 3]⟩
abbrev S256 : Shape := ⟨1, ![256]⟩
abbrev S64x256 : Shape := ⟨2, ![64, 256]⟩
abbrev S64 : Shape := ⟨1, ![64]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S3x256 : Shape := ⟨2, ![3, 256]⟩
abbrev S1x256 : Shape := ⟨2, ![1, 256]⟩
abbrev S64x64x4 : Shape := ⟨3, ![64, 64, 4]⟩
abbrev S800000x256 : Shape := ⟨2, ![800000, 256]⟩
abbrev S4000x3 : Shape := ⟨2, ![4000, 3]⟩
abbrev S4000x64 : Shape := ⟨2, ![4000, 64]⟩
abbrev S4000x256 : Shape := ⟨2, ![4000, 256]⟩
abbrev S4000 : Shape := ⟨1, ![4000]⟩
abbrev S4000x1 : Shape := ⟨2, ![4000, 1]⟩
abbrev S50000x256 : Shape := ⟨2, ![50000, 256]⟩
abbrev S50000 : Shape := ⟨1, ![50000]⟩
abbrev S50000x1 : Shape := ⟨2, ![50000, 1]⟩
abbrev S256x64 : Shape := ⟨2, ![256, 64]⟩
abbrev S1x64 : Shape := ⟨2, ![1, 64]⟩
abbrev S2000x256 : Shape := ⟨2, ![2000, 256]⟩
abbrev S2000x1 : Shape := ⟨2, ![2000, 1]⟩
abbrev S2000x64 : Shape := ⟨2, ![2000, 64]⟩

abbrev nBuf : Space → Nat
  | .hbm => 66
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S256x3, .f32⟩
  | .hbm, ⟨6, _⟩ => ⟨S256, .f32⟩
  | .hbm, ⟨7, _⟩ => ⟨S64x256, .f32⟩
  | .hbm, ⟨8, _⟩ => ⟨S64, .f32⟩
  | .hbm, ⟨9, _⟩ => ⟨S64, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x3, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x3, .f32⟩
  | .hbm, ⟨28, _⟩ => ⟨S800000x3, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S3x256, .f32⟩
  | .hbm, ⟨39, _⟩ => ⟨S1x256, .f32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S64x64, .i1⟩
  | .hbm, ⟨46, _⟩ => ⟨S64x64, .f32⟩
  | .hbm, ⟨47, _⟩ => ⟨S64x64x4, .f32⟩
  | .hbm, ⟨48, _⟩ => ⟨S64x256, .f32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S50000x1, .f32⟩
  | .hbm, ⟨61, _⟩ => ⟨S256x64, .f32⟩
  | .hbm, ⟨62, _⟩ => ⟨S1x64, .f32⟩
  | .hbm, ⟨63, _⟩ => ⟨S64x64, .f32⟩
  | .hbm, ⟨64, _⟩ => ⟨S1x64, .f32⟩
  | .hbm, ⟨65, _⟩ => ⟨S50000x64, .f32⟩
  | .local _ .vmem, ⟨0, _⟩ => ⟨S4000x3, .f32⟩
  | .local _ .vmem, ⟨1, _⟩ => ⟨S4000x3, .f32⟩
  | .local _ .vmem, ⟨2, _⟩ => ⟨S4000x64, .f32⟩
  | .local _ .vmem, ⟨3, _⟩ => ⟨S4000x64, .f32⟩
  | .local _ .vmem, ⟨4, _⟩ => ⟨S3x256, .f32⟩
  | .local _ .vmem, ⟨5, _⟩ => ⟨S1x256, .f32⟩
  | .local _ .vmem, ⟨6, _⟩ => ⟨S64x256, .f32⟩
  | .local _ .vmem, ⟨7, _⟩ => ⟨S4000x256, .f32⟩
  | .local _ .vmem, ⟨8, _⟩ => ⟨S4000x256, .f32⟩
  | .local _ .vmem, ⟨9, _⟩ => ⟨S2000x256, .f32⟩
  | .local _ .vmem, ⟨10, _⟩ => ⟨S2000x256, .f32⟩
  | .local _ .vmem, ⟨11, _⟩ => ⟨S2000x1, .f32⟩
  | .local _ .vmem, ⟨12, _⟩ => ⟨S2000x1, .f32⟩
  | .local _ .vmem, ⟨13, _⟩ => ⟨S2000x64, .f32⟩
  | .local _ .vmem, ⟨14, _⟩ => ⟨S2000x64, .f32⟩
  | .local _ .vmem, ⟨15, _⟩ => ⟨S256x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S2000x64, .f32⟩
  | .local _ .vmem, ⟨20, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S256x3_S3x256_1_0 : S256x3.Transposes [1, 0] S3x256
  shapeCasts_S256_S1x256 : S256.ShapeCasts S1x256
  bcast_S_S64x64 : S_.BroadcastsInDim S64x64 (![] : Fin 0 → Fin S64x64.rank)
  bcast_S64x64_S64x64x4_0_1 : S64x64.BroadcastsInDim S64x64x4 (![0, 1] : Fin 2 → Fin S64x64x4.rank)
  shapeCasts_S64x64x4_S64x256 : S64x64x4.ShapeCasts S64x256
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  reduces_S4000x3_S4000 : S4000x3.Reduces [1] S4000
  shapeCasts_S4000_S4000x1 : S4000.ShapeCasts S4000x1
  broadcasts_S4000x1_S4000x3 : S4000x1.Broadcasts S4000x3
  bitsLt_bf16_f32 : FTy.bits .bf16 < FTy.bits .f32
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S4000x256_S4000x256_0_0 : ∀ a, (![0, 0] : Fin 2 → Nat) a + S4000x256.size a ≤ S4000x256.size a
  h_S4000x256 : 0 < S4000x256.numel
  bcast_S_S50000x256 : S_.BroadcastsInDim S50000x256 (![] : Fin 0 → Fin S50000x256.rank)
  bcast_S_S50000 : S_.BroadcastsInDim S50000 (![] : Fin 0 → Fin S50000.rank)
  shapeCasts_S50000_S50000x1 : S50000.ShapeCasts S50000x1
  transposes_S64x256_S256x64_1_0 : S64x256.Transposes [1, 0] S256x64
  shapeCasts_S64_S1x64 : S64.ShapeCasts S1x64
  transposes_S64x64_S64x64_1_0 : S64x64.Transposes [1, 0] S64x64
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S4000x3_S3x256_S4000x256_1_0_0_1_n_n_wf : DotDims.WF S4000x3 S3x256 S4000x256 [1] [0] [0] [1] [] []
  dot_S4000x64_S64x256_S4000x256_1_0_0_1_n_n_wf : DotDims.WF S4000x64 S64x256 S4000x256 [1] [0] [0] [1] [] []
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x64_S2000x64_1_0_0_1_n_n_wf : DotDims.WF S2000x256 S256x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S800000x3.size a
  hwx0_0 : ∀ i : grid0.Coords, EltTy.bits .f32 = 32 ∨ (Rect.block (s := S800000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256.size a ≤ S3x256.size a
  hwx0_2 : ∀ i : grid0.Coords, EltTy.bits .f32 = 32 ∨ (Rect.block (s := S3x256) S3x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S800000x256.size a
  hwx0_5 : ∀ i : grid0.Coords, EltTy.bits .f32 = 32 ∨ (Rect.block (s := S800000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x3_S3x256_S4000x256_1_0_0_1_n_n : DotDims S4000x3 S3x256 S4000x256 where
  lhsContracting := [1]
  rhsContracting := [0]
  lhsNonContracting := [0]
  rhsNonContracting := [1]
  lhsBatch := []
  rhsBatch := []
  wf := dot_S4000x3_S3x256_S4000x256_1_0_0_1_n_n_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v14) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S3x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S800000 : Shape := ⟨1, ![800000]⟩
abbrev S64x64 : Shape := ⟨2, ![64, 64]⟩
abbrev S256x3 : Shape := ⟨2, ![256, 3]⟩
abbrev S256 : Shape := ⟨1, ![256]⟩
abbrev S64x256 : Shape := ⟨2, ![64, 256]⟩
abbrev S64 : Shape := ⟨1, ![64]⟩
abbrev S_ : Shape := ⟨0, ![]⟩
abbrev S800000x1 : Shape := ⟨2, ![800000, 1]⟩
abbrev S800000x3 : Shape := ⟨2, ![800000, 3]⟩
abbrev S3x256 : Shape := ⟨2, ![3, 256]⟩
abbrev S800000x256 : Shape := ⟨2, ![800000, 256]⟩
abbrev S1x256 : Shape := ⟨2, ![1, 256]⟩
abbrev S800000x64x4 : Shape := ⟨3, ![800000, 64, 4]⟩
abbrev S800000x64 : Shape := ⟨2, ![800000, 64]⟩
abbrev S800000x64x1 : Shape := ⟨3, ![800000, 64, 1]⟩
abbrev S50000x256 : Shape := ⟨2, ![50000, 256]⟩
abbrev S50000 : Shape := ⟨1, ![50000]⟩
abbrev S50000x1 : Shape := ⟨2, ![50000, 1]⟩
abbrev S256x64 : Shape := ⟨2, ![256, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S256x3, .f32⟩
  | .hbm, ⟨6, _⟩ => ⟨S256, .f32⟩
  | .hbm, ⟨7, _⟩ => ⟨S64x256, .f32⟩
  | .hbm, ⟨8, _⟩ => ⟨S64, .f32⟩
  | .hbm, ⟨9, _⟩ => ⟨S64, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x3, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x3, .f32⟩
  | .hbm, ⟨28, _⟩ => ⟨S800000x3, .f32⟩
  | .hbm, ⟨29, _⟩ => ⟨S800000x3, .f32⟩
  | .hbm, ⟨30, _⟩ => ⟨S_, .f32⟩
  | .hbm, ⟨31, _⟩ => ⟨S800000, .f32⟩
  | .hbm, ⟨32, _⟩ => ⟨S800000x1, .f32⟩
  | .hbm, ⟨33, _⟩ => ⟨S800000x1, .f32⟩
  | .hbm, ⟨34, _⟩ => ⟨S_, .f32⟩
  | .hbm, ⟨35, _⟩ => ⟨S800000x1, .f32⟩
  | .hbm, ⟨36, _⟩ => ⟨S800000x1, .f32⟩
  | .hbm, ⟨37, _⟩ => ⟨S_, .f32⟩
  | .hbm, ⟨38, _⟩ => ⟨S800000x3, .f32⟩
  | .hbm, ⟨39, _⟩ => ⟨S800000x3, .f32⟩
  | .hbm, ⟨40, _⟩ => ⟨S800000x3, .f32⟩
  | .hbm, ⟨41, _⟩ => ⟨S800000x3, .f32⟩
  | .hbm, ⟨42, _⟩ => ⟨S3x256, .f32⟩
  | .hbm, ⟨43, _⟩ => ⟨S800000x256, .f32⟩
  | .hbm, ⟨44, _⟩ => ⟨S1x256, .f32⟩
  | .hbm, ⟨45, _⟩ => ⟨S800000x256, .f32⟩
  | .hbm, ⟨46, _⟩ => ⟨S800000x256, .f32⟩
  | .hbm, ⟨47, _⟩ => ⟨S_, .f32⟩
  | .hbm, ⟨48, _⟩ => ⟨S_, .f32⟩
  | .hbm, ⟨49, _⟩ => ⟨S800000x256, .f32⟩
  | .hbm, ⟨50, _⟩ => ⟨S800000x256, .i1⟩
  | .hbm, ⟨51, _⟩ => ⟨S_, .f32⟩
  | .hbm, ⟨52, _⟩ => ⟨S800000x256, .f32⟩
  | .hbm, ⟨53, _⟩ => ⟨S800000x256, .f32⟩
  | .hbm, ⟨54, _⟩ => ⟨S800000x256, .f32⟩
  | .hbm, ⟨55, _⟩ => ⟨S800000x64x4, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S800000x64x1, .f32⟩
  | .hbm, ⟨66, _⟩ => ⟨S800000x64x4, .f32⟩
  | .hbm, ⟨67, _⟩ => ⟨S800000x64x4, .f32⟩
  | .hbm, ⟨68, _⟩ => ⟨S800000x256, .f32⟩
  | .hbm, ⟨69, _⟩ => ⟨S_, .f32⟩
  | .hbm, ⟨70, _⟩ => ⟨S50000x256, .f32⟩
  | .hbm, ⟨71, _⟩ => ⟨S800000x1, .i32⟩
  | .hbm, ⟨72, _⟩ => ⟨S50000x256, .f32⟩
  | .hbm, ⟨73, _⟩ => ⟨S_, .f32⟩
  | .hbm, ⟨74, _⟩ => ⟨S800000, .f32⟩
  | .hbm, ⟨75, _⟩ => ⟨S_, .f32⟩
  | .hbm, ⟨76, _⟩ => ⟨S50000, .f32⟩
  | .hbm, ⟨77, _⟩ => ⟨S800000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x256, .f32⟩
  | .hbm, ⟨84, _⟩ => ⟨S50000x256, .f32⟩
  | .hbm, ⟨85, _⟩ => ⟨S256x64, .f32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | .hbm, ⟨90, _⟩ => ⟨S64x64, .f32⟩
  | .hbm, ⟨91, _⟩ => ⟨S50000x64, .f32⟩
  | .hbm, ⟨92, _⟩ => ⟨S50000x64, .f32⟩
  | .hbm, ⟨93, _⟩ => ⟨S1x64, .f32⟩
  | .hbm, ⟨94, _⟩ => ⟨S50000x64, .f32⟩
  | .hbm, ⟨95, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S800000x1 : S_.BroadcastsInDim S800000x1 (![] : Fin 0 → Fin S800000x1.rank)
  bcast_S_S800000x3 : S_.BroadcastsInDim S800000x3 (![] : Fin 0 → Fin S800000x3.rank)
  bcast_S800000x1_S800000x3_0_1 : S800000x1.BroadcastsInDim S800000x3 (![0, 1] : Fin 2 → Fin S800000x3.rank)
  transposes_S256x3_S3x256_1_0 : S256x3.Transposes [1, 0] S3x256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  shapeCasts_S800000x256_S800000x64x4 : S800000x256.ShapeCasts S800000x64x4
  bcast_S800000x64_S800000x64x1_0_1 : S800000x64.BroadcastsInDim S800000x64x1 (![0, 1] : Fin 2 → Fin S800000x64x1.rank)
  bcast_S800000x64x1_S800000x64x4_0_1_2 : S800000x64x1.BroadcastsInDim S800000x64x4 (![0, 1, 2] : Fin 3 → Fin S800000x64x4.rank)
  shapeCasts_S800000x64x4_S800000x256 : S800000x64x4.ShapeCasts S800000x256
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  gather_S50000x3_S800000x1_S800000x3_1_0_n_n_0_1_13_wf : GatherDims.WF S50000x3 S800000x1 S800000x3 [1] [0] [] [0] [] 1 ![1, 3]
  dot_S800000x3_S3x256_S800000x256_1_0_0_1_n_n_wf : DotDims.WF S800000x3 S3x256 S800000x256 [1] [0] [0] [1] [] []
  gather_S50000x64_S800000x1_S800000x64_1_0_n_n_0_1_164_wf : GatherDims.WF S50000x64 S800000x1 S800000x64 [1] [0] [] [0] [] 1 ![1, 64]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  dot_S50000x64_S64x64_S50000x64_1_0_0_1_n_n_wf : DotDims.WF S50000x64 S64x64 S50000x64 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x3_S3x256_S800000x256_1_0_0_1_n_n : DotDims S800000x3 S3x256 S800000x256 where
  lhsContracting := [1]
  rhsContracting := [0]
  lhsNonContracting := [0]
  rhsNonContracting := [1]
  lhsBatch := []
  rhsBatch := []
  wf := dot_S800000x3_S3x256_S800000x256_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The mathematics both programs compute, row by row, on the extended reals.

  An edge e with relative position r = pos[dst e] - pos[src e] in R^3 is weighted, in each of the 256 hidden
  channels q, by  a(q) = leaky( sum_k ((r_k + 1) / (|r| + eps)) * w_k(q) + b(q) ),  where |r| is the square root of
  the sum of squares and leaky(x) = x when x >= 0 and slope * x otherwise; its message in channel q is a(q) times
  the source node's feature number q / 4.  A node n sums the messages of the edges that point at it, divides by
  max(count, 1), and is projected:  out(n, o) = (sum_k feat(n,k) Ws(o,k) + (sum_j mean(n,j) Wn(o,j) + bn(o))) + bias(o).

  The kernel multiplies by the reciprocal 1 / max(count, 1) where the reference divides; off zero a quotient on
  the extended reals IS the product with the inverse, and max(count, 1) is at least one, so the two agree at
  every extended real (`mul_recip_eq_div`), with no finiteness needed.  The kernel also picks the source feature
  q / 4 by a product with a 0/1 matrix; a sum with one non-zero term is that term (`sum_pick`).
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx
open scoped BigOperators

/-! ## Shapes -/

abbrev SE : Shape := ⟨1, ![800000]⟩
abbrev SE3 : Shape := ⟨2, ![800000, 3]⟩
abbrev SE64 : Shape := ⟨2, ![800000, 64]⟩
abbrev SE256 : Shape := ⟨2, ![800000, 256]⟩
abbrev SN : Shape := ⟨1, ![50000]⟩
abbrev SN1 : Shape := ⟨2, ![50000, 1]⟩
abbrev SN64 : Shape := ⟨2, ![50000, 64]⟩
abbrev SN256 : Shape := ⟨2, ![50000, 256]⟩
abbrev S256x3 : Shape := ⟨2, ![256, 3]⟩
abbrev S3x256 : Shape := ⟨2, ![3, 256]⟩
abbrev S1x256 : Shape := ⟨2, ![1, 256]⟩
abbrev S256 : Shape := ⟨1, ![256]⟩
abbrev S64x256 : Shape := ⟨2, ![64, 256]⟩
abbrev S256x64 : Shape := ⟨2, ![256, 64]⟩
abbrev S64x64 : Shape := ⟨2, ![64, 64]⟩
abbrev S1x64 : Shape := ⟨2, ![1, 64]⟩
abbrev S64 : Shape := ⟨1, ![64]⟩

/-! ## The four constants, as the extended reals their single-precision words denote -/

/-- The word both programs write for 1e-7. -/
abbrev eps : EReal := Ideal.ofBits .f32 0x33D6BF95#32
/-- The word for 1. -/
abbrev one : EReal := Ideal.ofBits .f32 0x3F800000#32
/-- The word for 0. -/
abbrev zero : EReal := Ideal.ofBits .f32 0x00000000#32
/-- The word both programs write for the slope 0.01. -/
abbrev slope : EReal := Ideal.ofBits .f32 0x3C23D70A#32

/-! ## One edge, one channel -/

/-- The activation of one edge in one channel: `r` the edge's relative position, `w` that channel's three spatial
    weights, `b` its bias. -/
def act (r : Fin 3 → EReal) (w : Fin 3 → EReal) (b : EReal) : EReal :=
  let lin := (∑ k : Fin 3, Ideal.div (r k + one) (Ideal.sqrt (∑ k' : Fin 3, r k' * r k') + eps) * w k) + b
  Scalar.select (Ideal.cmp .oge lin zero) lin (slope * lin)

/-! ## One node, one output channel -/

/-- The node stage as the kernel writes it: the neighbour sum times the reciprocal of max(count, 1). -/
def nodeRowK (ns : Fin 256 → EReal) (cnt : EReal) (feat : Fin 64 → EReal) (wn : Fin 256 → EReal) (bn : EReal)
    (ws : Fin 64 → EReal) (bias : EReal) : EReal :=
  ((∑ k : Fin 64, feat k * ws k) + ((∑ j : Fin 256, (ns j * Ideal.div one (max cnt one)) * wn j) + bn)) + bias

/-- The node stage as the reference writes it: the neighbour sum divided by max(count, 1). -/
def nodeRowR (ns : Fin 256 → EReal) (cnt : EReal) (feat : Fin 64 → EReal) (wn : Fin 256 → EReal) (bn : EReal)
    (ws : Fin 64 → EReal) (bias : EReal) : EReal :=
  ((∑ k : Fin 64, feat k * ws k) + ((∑ j : Fin 256, Ideal.div (ns j) (max cnt one) * wn j) + bn)) + bias

/-- The word for 1 denotes 1. -/
theorem one_eq : one = 1 := Ideal.ofBits_one_f32

/-- max(c, 1) is not zero. -/
theorem max_one_ne_zero (c : EReal) : max c one ≠ 0 := by
  rw [one_eq]
  exact (lt_of_lt_of_le zero_lt_one (le_max_right c 1)).ne'

/-- Off zero the quotient is the product with the inverse, so multiplying by the reciprocal of max(c, 1) IS dividing
    by it, at every extended real x. -/
theorem mul_recip_eq_div (x c : EReal) : x * Ideal.div one (max c one) = Ideal.div x (max c one) := by
  have h := max_one_ne_zero c
  unfold Ideal.div
  rw [if_neg h, if_neg h, one_eq, one_mul]

/-- The two ways of writing the node stage agree. -/
theorem nodeRowK_eq_nodeRowR (ns : Fin 256 → EReal) (cnt : EReal) (feat : Fin 64 → EReal) (wn : Fin 256 → EReal) (bn : EReal)
    (ws : Fin 64 → EReal) (bias : EReal) : nodeRowK ns cnt feat wn bn ws bias = nodeRowR ns cnt feat wn bn ws bias := by
  unfold nodeRowK nodeRowR
  simp only [mul_recip_eq_div]

/-- A sum against a 0/1 row with its one at position a is the term at a. -/
theorem sum_pick {n : Nat} (f : Fin n → EReal) (g : Fin n → EReal) (a : Fin n) (ha : g a = 1) (hne : ∀ i, i ≠ a → g i = 0) :
    ∑ i : Fin n, f i * g i = f a := by
  rw [Finset.sum_eq_single a (fun i _ hi => by rw [hne i hi, mul_zero]) (fun h => absurd (Finset.mem_univ a) h), ha, mul_one]

/-! ## The whole arrays -/

/-- Row e of an [E, C] array. -/
abbrev rowE {C : Nat} (x : FVec Ideal ⟨2, ![800000, C]⟩ .f32) (e : Fin 800000) : Fin C → EReal := fun k => x (ix2 e k)
/-- Row n of an [N, C] array. -/
abbrev rowN {C : Nat} (x : FVec Ideal ⟨2, ![50000, C]⟩ .f32) (n : Fin 50000) : Fin C → EReal := fun k => x (ix2 n k)

/-- The messages as the kernel's edge stage leaves them: the activation over the TRANSPOSED spatial weights
    `wT` [3, 256] and the bias as a row `b2` [1, 256], times the source features against the matrix `R` [64, 256]. -/
def edgeG (rel : FVec Ideal SE3 .f32) (fsrc : FVec Ideal SE64 .f32) (wT : FVec Ideal S3x256 .f32) (b2 : FVec Ideal S1x256 .f32)
    (R : FVec Ideal S64x256 .f32) : FVec Ideal SE256 .f32 := fun i =>
  let e : Fin 800000 := ⟨(i 0).val, idx2_lt0 i⟩
  let q : Fin 256 := ⟨(i 1).val, idx2_lt1 i⟩
  act (rowE rel e) (fun k => wT (ix2 k q)) (b2 (ix2 (0 : Fin 1) q)) * ∑ a : Fin 64, fsrc (ix2 e a) * R (ix2 a q)

/-- The messages as the reference writes them: the activation over the spatial weights `Wsp` [256, 3] and bias
    `bsp` [256], times the source's feature number q / 4. -/
def msgSpec (rel : FVec Ideal SE3 .f32) (fsrc : FVec Ideal SE64 .f32) (Wsp : FVec Ideal S256x3 .f32) (bsp : FVec Ideal S256 .f32) :
    FVec Ideal SE256 .f32 := fun i =>
  let e : Fin 800000 := ⟨(i 0).val, idx2_lt0 i⟩
  let q : Fin 256 := ⟨(i 1).val, idx2_lt1 i⟩
  act (rowE rel e) (fun k => Wsp (ix2 q k)) (bsp (ix1 q)) * fsrc (ix2 e (⟨q.val / 4, by have := q.isLt; omega⟩ : Fin 64))

/-- The output as the kernel's node stage leaves it: over the count as a column `cnt2` [N, 1], the TRANSPOSED
    projections `WnT` [256, 64], `WsT` [64, 64] and the two biases as rows [1, 64]. -/
def nodeG (ns : FVec Ideal SN256 .f32) (cnt2 : FVec Ideal SN1 .f32) (feat : FVec Ideal SN64 .f32) (WnT : FVec Ideal S256x64 .f32)
    (bn2 : FVec Ideal S1x64 .f32) (WsT : FVec Ideal S64x64 .f32) (bias2 : FVec Ideal S1x64 .f32) : FVec Ideal SN64 .f32 := fun i =>
  let n : Fin 50000 := ⟨(i 0).val, idx2_lt0 i⟩
  let o : Fin 64 := ⟨(i 1).val, idx2_lt1 i⟩
  nodeRowK (rowN ns n) (cnt2 (ix2 n (0 : Fin 1))) (rowN feat n) (fun j => WnT (ix2 j o)) (bn2 (ix2 (0 : Fin 1) o))
    (fun k => WsT (ix2 k o)) (bias2 (ix2 (0 : Fin 1) o))

/-- The output as the reference writes it: over the count [N], the projections `Wn` [64, 256], `Ws` [64, 64] and
    the two biases [64]. -/
def outSpec (ns : FVec Ideal SN256 .f32) (cnt : FVec Ideal SN .f32) (feat : FVec Ideal SN64 .f32) (Wn : FVec Ideal S64x256 .f32)
    (bn : FVec Ideal S64 .f32) (Ws : FVec Ideal S64x64 .f32) (bias : FVec Ideal S64 .f32) : FVec Ideal SN64 .f32 := fun i =>
  let n : Fin 50000 := ⟨(i 0).val, idx2_lt0 i⟩
  let o : Fin 64 := ⟨(i 1).val, idx2_lt1 i⟩
  nodeRowR (rowN ns n) (cnt (ix1 n)) (rowN feat n) (fun j => Wn (ix2 o j)) (bn (ix1 o)) (fun k => Ws (ix2 o k)) (bias (ix1 o))

end Cert.Spec

end
-- ==== Proof.EdgeValue.lean ====
/-
  The edge stage's result array: every block the pipeline writes back is the messages' function of the
  arrays the region found, read through that block, and the 200 blocks of 4000 rows cover the array.
-/
import proofs.«102554_j15461882266185_1_alg».proof.Proof.Gen.KernelIdeal.Frame
import proofs.«102554_j15461882266185_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.EdgeValue

open Cert.KernelIdeal Cert.KernelIdeal.Gen

variable (V : (c : Dev nD) → (b : Ref sig .tc) → Buf (Elt Ideal) ((c : Thread nD τ).loc b))

section Bridge

open Idealize.ShloMosaic.ValueIdx
open scoped BigOperators

/-! ## Layout operations of the body, read at an index -/

/-- A column [4000] viewed as [4000, 1] reads, at (p, u), the column at p. -/
theorem col_cast {α : Type} (v : S4000.Idx → α) (h : S4000.ShapeCasts S4000x1) (p : Fin 4000) (u : Fin 1) :
    shapeCast S4000x1 v h (ix2 p u) = v (ix1 p) :=
  shapeCast_apply v h _ _ (by
    have hu : u.val = 0 := by omega
    rw [Shape.rowMajor_val_two, Shape.rowMajor_val_one]
    show p.val = p.val * 1 + u.val
    omega)

/-- A column [4000, 1] repeated along three lanes reads, at (p, k), the column at (p, 0). -/
theorem col_bcast {α : Type} (v : S4000x1.Idx → α) (h : S4000x1.Broadcasts S4000x3) (p : Fin 4000) (k : Fin 3) :
    broadcastTo S4000x3 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The sum along the three lanes of a [4000, 3] block, at row p. -/
theorem lane_sum (v : FVec Ideal S4000x3 .f32) (h : S4000x3.Reduces [1] S4000) (hφ : FKind.Formats .f32)
    (hacc : (0x00000000#32 : BitVec 32) = 0x00000000#32) (p : Fin 4000) :
    multiReduction .add [1] S4000 v 0x00000000#32 h hφ hacc (ix1 p) = ∑ k : Fin 3, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- A square root of a block at an index is the square root of the element. -/
theorem sqrt_apply {s : Shape} {φ : FTy} (v : FVec Ideal s φ) (i : s.Idx) : sqrt v i = Ideal.sqrt (v i) := rfl

/-! ## The two products of the body, read at an index -/

theorem lhs3_0 (i : S4000x256.Idx) (q : dot_S4000x3_S3x256_S4000x256_1_0_0_1_n_n.contr.Idx) :
    (dot_S4000x3_S3x256_S4000x256_1_0_0_1_n_n.lhsIdx i q 0).val = (i 0).val := by
  unfold DotDims.lhsIdx
  rw [dif_neg (show ¬(0 : Fin S4000x3.rank) ∈ dot_S4000x3_S3x256_S4000x256_1_0_0_1_n_n.lhsBatch by decide),
    dif_pos (show (0 : Fin S4000x3.rank) ∈ dot_S4000x3_S3x256_S4000x256_1_0_0_1_n_n.lhsNonContracting by decide)]
  rfl
theorem lhs3_1 (i : S4000x256.Idx) (q : dot_S4000x3_S3x256_S4000x256_1_0_0_1_n_n.contr.Idx) :
    (dot_S4000x3_S3x256_S4000x256_1_0_0_1_n_n.lhsIdx i q 1).val = (q ⟨0, by decide⟩).val :=
  dot_S4000x3_S3x256_S4000x256_1_0_0_1_n_n.lhsIdx_val_of_single rfl i q
theorem rhs3_0 (i : S4000x256.Idx) (q : dot_S4000x3_S3x256_S4000x256_1_0_0_1_n_n.contr.Idx) :
    (dot_S4000x3_S3x256_S4000x256_1_0_0_1_n_n.rhsIdx i q 0).val = (q ⟨0, by decide⟩).val :=
  dot_S4000x3_S3x256_S4000x256_1_0_0_1_n_n.rhsIdx_val_of_single rfl i q
theorem rhs3_1 (i : S4000x256.Idx) (q : dot_S4000x3_S3x256_S4000x256_1_0_0_1_n_n.contr.Idx) :
    (dot_S4000x3_S3x256_S4000x256_1_0_0_1_n_n.rhsIdx i q 1).val = (i 1).val := by
  unfold DotDims.rhsIdx
  rw [dif_neg (show ¬(1 : Fin S3x256.rank) ∈ dot_S4000x3_S3x256_S4000x256_1_0_0_1_n_n.rhsBatch by decide),
    dif_pos (show (1 : Fin S3x256.rank) ∈ dot_S4000x3_S3x256_S4000x256_1_0_0_1_n_n.rhsNonContracting by decide)]
  rfl

/-- The product of a [4000, 3] block with a [3, 256] matrix into zero, at (p, q): the sum over the three lanes. -/
theorem matmul3_apply (a : FVec Ideal S4000x3 .bf16) (b : FVec Ideal S3x256 .bf16) (p : Fin 4000) (q : Fin 256) :
    matmul dot_S4000x3_S3x256_S4000x256_1_0_0_1_n_n none a b (constant (F := Ideal) S4000x256 .f32 0x00000000#32) (ix2 p q)
      = ∑ k : Fin 3, a (ix2 p k) * b (ix2 k q) := by
  refine (Ideal.matmul_constant_zero_apply dot_S4000x3_S3x256_S4000x256_1_0_0_1_n_n none a b (ix2 p q)).trans ?_
  rw [← Equiv.sum_comp (contrEquiv1 dot_S4000x3_S3x256_S4000x256_1_0_0_1_n_n 3 rfl rfl).symm]
  refine Finset.sum_congr rfl fun k _ => ?_
  have hk := contrEquiv1_symm_val dot_S4000x3_S3x256_S4000x256_1_0_0_1_n_n 3 rfl rfl k
  have el : dot_S4000x3_S3x256_S4000x256_1_0_0_1_n_n.lhsIdx (ix2 p q) ((contrEquiv1 dot_S4000x3_S3x256_S4000x256_1_0_0_1_n_n 3 rfl rfl).symm k) = ix2 p k :=
    funext fun a => Fin.ext (by
      match a with
      | ⟨0, _⟩ => exact lhs3_0 _ _
      | ⟨1, _⟩ => exact (lhs3_1 _ _).trans hk)
  have er : dot_S4000x3_S3x256_S4000x256_1_0_0_1_n_n.rhsIdx (ix2 p q) ((contrEquiv1 dot_S4000x3_S3x256_S4000x256_1_0_0_1_n_n 3 rfl rfl).symm k) = ix2 k q :=
    funext fun a => Fin.ext (by
      match a with
      | ⟨0, _⟩ => exact (rhs3_0 _ _).trans hk
      | ⟨1, _⟩ => exact rhs3_1 _ _)
  rw [el, er]

theorem lhs64_0 (i : S4000x256.Idx) (q : dot_S4000x64_S64x256_S4000x256_1_0_0_1_n_n.contr.Idx) :
    (dot_S4000x64_S64x256_S4000x256_1_0_0_1_n_n.lhsIdx i q 0).val = (i 0).val := by
  unfold DotDims.lhsIdx
  rw [dif_neg (show ¬(0 : Fin S4000x64.rank) ∈ dot_S4000x64_S64x256_S4000x256_1_0_0_1_n_n.lhsBatch by decide),
    dif_pos (show (0 : Fin S4000x64.rank) ∈ dot_S4000x64_S64x256_S4000x256_1_0_0_1_n_n.lhsNonContracting by decide)]
  rfl
theorem lhs64_1 (i : S4000x256.Idx) (q : dot_S4000x64_S64x256_S4000x256_1_0_0_1_n_n.contr.Idx) :
    (dot_S4000x64_S64x256_S4000x256_1_0_0_1_n_n.lhsIdx i q 1).val = (q ⟨0, by decide⟩).val :=
  dot_S4000x64_S64x256_S4000x256_1_0_0_1_n_n.lhsIdx_val_of_single rfl i q
theorem rhs64_0 (i : S4000x256.Idx) (q : dot_S4000x64_S64x256_S4000x256_1_0_0_1_n_n.contr.Idx) :
    (dot_S4000x64_S64x256_S4000x256_1_0_0_1_n_n.rhsIdx i q 0).val = (q ⟨0, by decide⟩).val :=
  dot_S4000x64_S64x256_S4000x256_1_0_0_1_n_n.rhsIdx_val_of_single rfl i q
theorem rhs64_1 (i : S4000x256.Idx) (q : dot_S4000x64_S64x256_S4000x256_1_0_0_1_n_n.contr.Idx) :
    (dot_S4000x64_S64x256_S4000x256_1_0_0_1_n_n.rhsIdx i q 1).val = (i 1).val := by
  unfold DotDims.rhsIdx
  rw [dif_neg (show ¬(1 : Fin S64x256.rank) ∈ dot_S4000x64_S64x256_S4000x256_1_0_0_1_n_n.rhsBatch by decide),
    dif_pos (show (1 : Fin S64x256.rank) ∈ dot_S4000x64_S64x256_S4000x256_1_0_0_1_n_n.rhsNonContracting by decide)]
  rfl

/-- The product of a [4000, 64] block with a [64, 256] matrix into zero, at (p, q): the sum over the 64 features. -/
theorem matmul64_apply (a : FVec Ideal S4000x64 .bf16) (b : FVec Ideal S64x256 .bf16) (p : Fin 4000) (q : Fin 256) :
    matmul dot_S4000x64_S64x256_S4000x256_1_0_0_1_n_n none a b (constant (F := Ideal) S4000x256 .f32 0x00000000#32) (ix2 p q)
      = ∑ k : Fin 64, a (ix2 p k) * b (ix2 k q) := by
  refine (Ideal.matmul_constant_zero_apply dot_S4000x64_S64x256_S4000x256_1_0_0_1_n_n none a b (ix2 p q)).trans ?_
  rw [← Equiv.sum_comp (contrEquiv1 dot_S4000x64_S64x256_S4000x256_1_0_0_1_n_n 64 rfl rfl).symm]
  refine Finset.sum_congr rfl fun k _ => ?_
  have hk := contrEquiv1_symm_val dot_S4000x64_S64x256_S4000x256_1_0_0_1_n_n 64 rfl rfl k
  have el : dot_S4000x64_S64x256_S4000x256_1_0_0_1_n_n.lhsIdx (ix2 p q) ((contrEquiv1 dot_S4000x64_S64x256_S4000x256_1_0_0_1_n_n 64 rfl rfl).symm k) = ix2 p k :=
    funext fun a => Fin.ext (by
      match a with
      | ⟨0, _⟩ => exact lhs64_0 _ _
      | ⟨1, _⟩ => exact (lhs64_1 _ _).trans hk)
  have er : dot_S4000x64_S64x256_S4000x256_1_0_0_1_n_n.rhsIdx (ix2 p q) ((contrEquiv1 dot_S4000x64_S64x256_S4000x256_1_0_0_1_n_n 64 rfl rfl).symm k) = ix2 k q :=
    funext fun a => Fin.ext (by
      match a with
      | ⟨0, _⟩ => exact (rhs64_0 _ _).trans hk
      | ⟨1, _⟩ => exact rhs64_1 _ _)
  rw [el, er]

/-! ## The body's result at an index -/

/-- The body's result at row p of the block and channel q: the activation of that row's relative position in channel q
    times the sum, over the 64 features, of the row's source features against the matrix. -/
theorem pay_apply (x0 : FVec Ideal S4000x3 .f32) (x1 : FVec Ideal S4000x64 .f32) (x2 : FVec Ideal S3x256 .f32)
    (x3 : FVec Ideal S1x256 .f32) (x4 : FVec Ideal S64x256 .f32) (p : Fin 4000) (q : Fin 256) :
    k0_pay1 (F := Ideal) x0 x1 x2 x3 x4 (ix2 p q)
      = Cert.Spec.act (fun k => x0 (ix2 p k)) (fun k => x2 (ix2 k q)) (x3 (ix2 (0 : Fin 1) q)) * ∑ a : Fin 64, x1 (ix2 p a) * x4 (ix2 a q) := by
  unfold k0_pay1
  simp only [shapeCast_self, mulf_apply, select_apply, cmpf_apply, addf_apply, divf_apply, truncf_apply, broadcast_apply,
    matmul3_apply, matmul64_apply, broadcastTo_1b_ab_apply, col_bcast, col_cast, sqrt_apply]
  rw [lane_sum]
  simp only [mulf_apply]
  rfl

/-! ## The region's arrays and the blocks the pipeline stages, at their literal types -/

/-- The five arrays the edge region reads, as it finds them. -/
abbrev relArr (c : Dev nD) : FVec Ideal S800000x3 .f32 := V c main_v14
abbrev srcArr (c : Dev nD) : FVec Ideal S800000x64 .f32 := V c main_v21
abbrev wArr (c : Dev nD) : FVec Ideal S3x256 .f32 := V c main_v22
abbrev bArr (c : Dev nD) : FVec Ideal S1x256 .f32 := V c main_v23
abbrev rArr (c : Dev nD) : FVec Ideal S64x256 .f32 := V c main_v31

/-- Their blocks at grid point t. -/
abbrev relBlk (c : Dev nD) (t : Fin cfg0.N) : FVec Ideal S4000x3 .f32 := iblk0 V c 0 t
abbrev srcBlk (c : Dev nD) (t : Fin cfg0.N) : FVec Ideal S4000x64 .f32 := iblk0 V c 1 t
abbrev wBlk (c : Dev nD) (t : Fin cfg0.N) : FVec Ideal S3x256 .f32 := iblk0 V c 2 t
abbrev bBlk (c : Dev nD) (t : Fin cfg0.N) : FVec Ideal S1x256 .f32 := iblk0 V c 3 t
abbrev rBlk (c : Dev nD) (t : Fin cfg0.N) : FVec Ideal S64x256 .f32 := iblk0 V c 4 t

theorem hz : (![0, 0] : Fin 2 → Nat) = fun _ => 0 := funext fun a => by fin_cases a <;> rfl

/-- The windows' index maps over the grid: the two row windows and the result window sit at block (t, 0), the three
    small windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the relative positions' block at point t is row 4000 t + p of the array. -/
theorem relBlk_apply (c : Dev nD) (t : Fin cfg0.N) (p : Fin 4000) (k : Fin 3) (e : Fin 800000) (he : e.val = 4000 * t.val + p.val) :
    relBlk V c t (ix2 p k) = relArr V c (ix2 e k) := by
  obtain ⟨e0, e1, -⟩ := idx_facts t
  unfold relBlk iblk0
  rw [View.read_apply]
  show V c main_v14 _ = V c main_v14 _
  congr 1
  funext a
  apply Fin.ext
  match a with
  | ⟨0, _⟩ => show win0_0.index t (0 : Fin 2) * 4000 + 1 * p.val = e.val; rw [e0, he]; omega
  | ⟨1, _⟩ => show win0_0.index t (1 : Fin 2) * 3 + 1 * k.val = k.val; rw [e1]; omega

/-- Row p of the source features' block at point t is row 4000 t + p of the array. -/
theorem srcBlk_apply (c : Dev nD) (t : Fin cfg0.N) (p : Fin 4000) (k : Fin 64) (e : Fin 800000) (he : e.val = 4000 * t.val + p.val) :
    srcBlk V c t (ix2 p k) = srcArr V c (ix2 e k) := by
  obtain ⟨-, -, e0, e1, -⟩ := idx_facts t
  unfold srcBlk iblk0
  rw [View.read_apply]
  show V c main_v21 _ = V c main_v21 _
  congr 1
  funext a
  apply Fin.ext
  match a with
  | ⟨0, _⟩ => show win0_1.index t (0 : Fin 2) * 4000 + 1 * p.val = e.val; rw [e0, he]; omega
  | ⟨1, _⟩ => show win0_1.index t (1 : Fin 2) * 64 + 1 * k.val = k.val; rw [e1]; omega

/-- The transposed spatial weights' block is the whole array at every point. -/
theorem wBlk_apply (c : Dev nD) (t : Fin cfg0.N) (k : Fin 3) (q : Fin 256) : wBlk V c t (ix2 k q) = wArr V c (ix2 k q) := by
  obtain ⟨-, -, -, -, e0, e1, -⟩ := idx_facts t
  unfold wBlk iblk0
  rw [View.read_apply]
  show V c main_v22 _ = V c main_v22 _
  congr 1
  funext a
  apply Fin.ext
  match a with
  | ⟨0, _⟩ => show win0_2.index t (0 : Fin 2) * 3 + 1 * k.val = k.val; rw [e0]; omega
  | ⟨1, _⟩ => show win0_2.index t (1 : Fin 2) * 256 + 1 * q.val = q.val; rw [e1]; omega

/-- The bias row's block is the whole array at every point. -/
theorem bBlk_apply (c : Dev nD) (t : Fin cfg0.N) (u : Fin 1) (q : Fin 256) : bBlk V c t (ix2 u q) = bArr V c (ix2 u q) := by
  obtain ⟨-, -, -, -, -, -, e0, e1, -⟩ := idx_facts t
  unfold bBlk iblk0
  rw [View.read_apply]
  show V c main_v23 _ = V c main_v23 _
  congr 1
  funext a
  apply Fin.ext
  match a with
  | ⟨0, _⟩ => show win0_3.index t (0 : Fin 2) * 1 + 1 * u.val = u.val; rw [e0]; omega
  | ⟨1, _⟩ => show win0_3.index t (1 : Fin 2) * 256 + 1 * q.val = q.val; rw [e1]; omega

/-- The 0/1 matrix's block is the whole array at every point. -/
theorem rBlk_apply (c : Dev nD) (t : Fin cfg0.N) (a' : Fin 64) (q : Fin 256) : rBlk V c t (ix2 a' q) = rArr V c (ix2 a' q) := by
  obtain ⟨-, -, -, -, -, -, -, -, e0, e1, -⟩ := idx_facts t
  unfold rBlk iblk0
  rw [View.read_apply]
  show V c main_v31 _ = V c main_v31 _
  congr 1
  funext a
  apply Fin.ext
  match a with
  | ⟨0, _⟩ => show win0_4.index t (0 : Fin 2) * 64 + 1 * a'.val = a'.val; rw [e0]; omega
  | ⟨1, _⟩ => show win0_4.index t (1 : Fin 2) * 256 + 1 * q.val = q.val; rw [e1]; omega

/-- The body's result on the blocks at point t, at row p and channel q, is the messages' function of the arrays at
    row 4000 t + p and channel q. -/
theorem blk_point (c : Dev nD) (t : Fin cfg0.N) (p : Fin 4000) (q : Fin 256) (i : S800000x256.Idx)
    (h0 : (i 0).val = 4000 * t.val + p.val) (h1 : (i 1).val = q.val) :
    k0_pay1 (F := Ideal) (relBlk V c t) (srcBlk V c t) (wBlk V c t) (bBlk V c t) (rBlk V c t) (ix2 p q)
      = Cert.Spec.edgeG (relArr V c) (srcArr V c) (wArr V c) (bArr V c) (rArr V c) i := by
  refine (pay_apply (relBlk V c t) (srcBlk V c t) (wBlk V c t) (bBlk V c t) (rBlk V c t) p q).trans ?_
  unfold Cert.Spec.edgeG
  dsimp only
  have hq : (⟨(i 1).val, idx2_lt1 i⟩ : Fin 256) = q := Fin.ext h1
  rw [hq]
  simp only [relBlk_apply V c t p _ ⟨(i 0).val, idx2_lt0 i⟩ h0, srcBlk_apply V c t p _ ⟨(i 0).val, idx2_lt0 i⟩ h0,
    wBlk_apply V c t, bBlk_apply V c t, rBlk_apply V c t]

/-- What point t writes back is block t of the messages' function of the five arrays. -/
theorem flushed_eq (c : Dev nD) (t : Fin cfg0.N) :
    (dat0 (F := Ideal) V c).flushed 5 t
      = ((cfg0.win 5).blk t).view.read (Elt Ideal)
          (Cert.Spec.edgeG (relArr V c) (srcArr V c) (wArr V c) (bArr V c) (rArr V c)) := by
  show (cfg0.win 5).cut (grid0.coords t) ((dat0 V c).after 5 t) = _
  rw [after0_5]
  unfold out0_5
  rw [View.canon_unit_zero hz]
  simp only [View.ld_unit_zero (S := S4000x3) hz, View.ld_unit_zero (S := S4000x64) hz, View.ld_unit_zero (S := S3x256) hz,
    View.ld_unit_zero (S := S1x256) hz, View.ld_unit_zero (S := S64x256) hz]
  obtain ⟨-, -, -, -, -, -, -, -, -, -, e0, e1⟩ := idx_facts t
  have key : k0_pay1 (F := Ideal) (relBlk V c t) (srcBlk V c t) (wBlk V c t) (bBlk V c t) (rBlk V c t)
      = fun j : S4000x256.Idx => Cert.Spec.edgeG (relArr V c) (srcArr V c) (wArr V c) (bArr V c) (rArr V c)
          (((cfg0.win 5).blk t).view.emb j) := by
    funext j
    obtain ⟨p, q, rfl⟩ : ∃ (p : Fin 4000) (q : Fin 256), j = ix2 p q := ⟨j 0, j 1, eq_ix2 j⟩
    refine blk_point V c t p q _ ?_ ?_
    · show win0_5.index t (0 : Fin 2) * 4000 + 1 * p.val = 4000 * t.val + p.val
      rw [e0]; omega
    · show win0_5.index t (1 : Fin 2) * 256 + 1 * q.val = q.val
      rw [e1]; omega
  exact key

/-- An index of the message array is in point t's block iff each coordinate is in the block's range on its axis. -/
theorem mem_blk (t : Fin cfg0.N) (i : S800000x256.Idx) :
    i ∈ ((cfg0.win 5).blk t).view.set ↔ ∀ a : Fin 2, win0_5.index t a * S4000x256.size a ≤ (i a).val
      ∧ (i a).val < win0_5.index t a * S4000x256.size a + S4000x256.size a := by
  show i ∈ ((View.whole main_v32).slice (win0_5.rect t)).set ↔ _
  rw [View.set_slice_whole, Rect.mem_set_unit]
  exact Iff.rfl

/-- Row r of the message array lies in the block of point r / 4000: the 200 blocks of 4000 rows cover the array. -/
theorem cover (i : S800000x256.Idx) :
    ∃ t : Fin cfg0.N, (cfg0.win 5).flush t = true ∧ i ∈ ((cfg0.win 5).blk t).view.set := by
  have hN : grid0.N = 200 := N_0
  have hi0 : (i 0).val < 800000 := idx2_lt0 i
  have hi1 : (i 1).val < 256 := idx2_lt1 i
  obtain ⟨t, ht⟩ : ∃ t : Fin cfg0.N, t.val = (i 0).val / 4000 :=
    ⟨⟨(i 0).val / 4000, by show (i 0).val / 4000 < grid0.N; rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 4000 ≤ (i 0).val ∧ (i 0).val < win0_5.index t (0 : Fin 2) * 4000 + 4000
    rw [e0, ht]; omega
  | ⟨1, _⟩ =>
    show win0_5.index t (1 : Fin 2) * 256 ≤ (i 1).val ∧ (i 1).val < win0_5.index t (1 : Fin 2) * 256 + 256
    rw [e1]; omega

end Bridge

/-- After the edge region, entered at the contents V, the message array is the messages' function of the five
    arrays the region read. -/
theorem arr_eq (c : Dev nD) :
    ((dat0 (F := Ideal) V c).arrAt 5 cfg0.N : FVec Ideal S800000x256 .f32)
      = Cert.Spec.edgeG (V c main_v14) (V c main_v21) (V c main_v22) (V c main_v23) (V c main_v31) := by
  exact (dat0 (F := Ideal) V c).arrAt_eq_of_cover 5
    (Cert.Spec.edgeG (V c main_v14) (V c main_v21) (V c main_v22) (V c main_v23) (V c main_v31))
    (fun t _ => flushed_eq V c t) cover

end Cert.KernelIdeal.EdgeValue

end
-- ==== Proof.NodeValue.lean ====
/-
  The node stage's result array: every block the pipeline writes back is the output's function of the
  arrays the region found, read through that block, and the 25 blocks of 2000 rows cover the array.
-/
import proofs.«102554_j15461882266185_1_alg».proof.Proof.Gen.KernelIdeal.Frame
import proofs.«102554_j15461882266185_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.NodeValue

open Cert.KernelIdeal Cert.KernelIdeal.Gen
open Idealize.ShloMosaic.ValueIdx
open scoped BigOperators

variable (V : (c : Dev nD) → (b : Ref sig .tc) → Buf (Elt Ideal) ((c : Thread nD τ).loc b))

/-! ## The body's arithmetic at one row and one output channel -/

/-- A column [a, 1] broadcast along the second axis reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The neighbour product reads its left operand at (row, channel) and its right operand at (channel, output):
    the four coordinates, one by one. -/
theorem neigh_lhs_0 (j : S2000x64.Idx) (k : dot_S2000x256_S256x64_S2000x64_1_0_0_1_n_n.contr.Idx) :
    (dot_S2000x256_S256x64_S2000x64_1_0_0_1_n_n.lhsIdx j k (0 : Fin 2)).val = (j (0 : Fin 2)).val := by
  unfold DotDims.lhsIdx
  rw [dif_neg (show ¬(0 : Fin S2000x256.rank) ∈ dot_S2000x256_S256x64_S2000x64_1_0_0_1_n_n.lhsBatch by decide),
    dif_pos (show (0 : Fin S2000x256.rank) ∈ dot_S2000x256_S256x64_S2000x64_1_0_0_1_n_n.lhsNonContracting by decide)]
  rfl
theorem neigh_lhs_1 (j : S2000x64.Idx) (k : dot_S2000x256_S256x64_S2000x64_1_0_0_1_n_n.contr.Idx) :
    (dot_S2000x256_S256x64_S2000x64_1_0_0_1_n_n.lhsIdx j k (1 : Fin 2)).val = (k ⟨0, by decide⟩).val :=
  dot_S2000x256_S256x64_S2000x64_1_0_0_1_n_n.lhsIdx_val_of_single rfl j k
theorem neigh_rhs_0 (j : S2000x64.Idx) (k : dot_S2000x256_S256x64_S2000x64_1_0_0_1_n_n.contr.Idx) :
    (dot_S2000x256_S256x64_S2000x64_1_0_0_1_n_n.rhsIdx j k (0 : Fin 2)).val = (k ⟨0, by decide⟩).val :=
  dot_S2000x256_S256x64_S2000x64_1_0_0_1_n_n.rhsIdx_val_of_single rfl j k
theorem neigh_rhs_1 (j : S2000x64.Idx) (k : dot_S2000x256_S256x64_S2000x64_1_0_0_1_n_n.contr.Idx) :
    (dot_S2000x256_S256x64_S2000x64_1_0_0_1_n_n.rhsIdx j k (1 : Fin 2)).val = (j (1 : Fin 2)).val := by
  unfold DotDims.rhsIdx
  rw [dif_neg (show ¬(1 : Fin S256x64.rank) ∈ dot_S2000x256_S256x64_S2000x64_1_0_0_1_n_n.rhsBatch by decide),
    dif_pos (show (1 : Fin S256x64.rank) ∈ dot_S2000x256_S256x64_S2000x64_1_0_0_1_n_n.rhsNonContracting by decide)]
  rfl

/-- The self product reads its left operand at (row, feature) and its right operand at (feature, output):
    the four coordinates, one by one. -/
theorem self_lhs_0 (j : S2000x64.Idx) (k : dot_S2000x64_S64x64_S2000x64_1_0_0_1_n_n.contr.Idx) :
    (dot_S2000x64_S64x64_S2000x64_1_0_0_1_n_n.lhsIdx j k (0 : Fin 2)).val = (j (0 : Fin 2)).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem self_lhs_1 (j : S2000x64.Idx) (k : dot_S2000x64_S64x64_S2000x64_1_0_0_1_n_n.contr.Idx) :
    (dot_S2000x64_S64x64_S2000x64_1_0_0_1_n_n.lhsIdx j k (1 : Fin 2)).val = (k ⟨0, by decide⟩).val :=
  dot_S2000x64_S64x64_S2000x64_1_0_0_1_n_n.lhsIdx_val_of_single rfl j k
theorem self_rhs_0 (j : S2000x64.Idx) (k : dot_S2000x64_S64x64_S2000x64_1_0_0_1_n_n.contr.Idx) :
    (dot_S2000x64_S64x64_S2000x64_1_0_0_1_n_n.rhsIdx j k (0 : Fin 2)).val = (k ⟨0, by decide⟩).val :=
  dot_S2000x64_S64x64_S2000x64_1_0_0_1_n_n.rhsIdx_val_of_single rfl j k
theorem self_rhs_1 (j : S2000x64.Idx) (k : dot_S2000x64_S64x64_S2000x64_1_0_0_1_n_n.contr.Idx) :
    (dot_S2000x64_S64x64_S2000x64_1_0_0_1_n_n.rhsIdx j k (1 : Fin 2)).val = (j (1 : Fin 2)).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The neighbour product into zeros, at row p and output o: the sum over the 256 channels. -/
theorem neigh_matmul_apply (l : FVec Ideal S2000x256 .bf16) (r : FVec Ideal S256x64 .bf16) (p : Fin 2000) (o : Fin 64) :
    matmul dot_S2000x256_S256x64_S2000x64_1_0_0_1_n_n none l r (constant (F := Ideal) S2000x64 .f32 0x00000000#32) (ix2 p o)
      = ∑ j : Fin 256, l (ix2 p j) * r (ix2 j o) := by
  refine (Ideal.matmul_constant_zero_apply dot_S2000x256_S256x64_S2000x64_1_0_0_1_n_n none l r (ix2 p o)).trans ?_
  rw [← Equiv.sum_comp (contrEquiv1 dot_S2000x256_S256x64_S2000x64_1_0_0_1_n_n 256 rfl rfl).symm]
  refine Finset.sum_congr rfl fun j _ => ?_
  have hk : (((contrEquiv1 dot_S2000x256_S256x64_S2000x64_1_0_0_1_n_n 256 rfl rfl).symm j) ⟨0, by decide⟩ : ℕ) = j.val :=
    contrEquiv1_symm_val dot_S2000x256_S256x64_S2000x64_1_0_0_1_n_n 256 rfl rfl j
  have el : dot_S2000x256_S256x64_S2000x64_1_0_0_1_n_n.lhsIdx (ix2 p o) ((contrEquiv1 dot_S2000x256_S256x64_S2000x64_1_0_0_1_n_n 256 rfl rfl).symm j) = ix2 p j := by
    funext a; apply Fin.ext
    match a with
    | ⟨0, _⟩ => exact neigh_lhs_0 _ _
    | ⟨1, _⟩ => exact (neigh_lhs_1 _ _).trans hk
  have er : dot_S2000x256_S256x64_S2000x64_1_0_0_1_n_n.rhsIdx (ix2 p o) ((contrEquiv1 dot_S2000x256_S256x64_S2000x64_1_0_0_1_n_n 256 rfl rfl).symm j) = ix2 j o := by
    funext a; apply Fin.ext
    match a with
    | ⟨0, _⟩ => exact (neigh_rhs_0 _ _).trans hk
    | ⟨1, _⟩ => exact neigh_rhs_1 _ _
  rw [el, er]

/-- The self product into zeros, at row p and output o: the sum over the 64 features. -/
theorem self_matmul_apply (l : FVec Ideal S2000x64 .bf16) (r : FVec Ideal S64x64 .bf16) (p : Fin 2000) (o : Fin 64) :
    matmul dot_S2000x64_S64x64_S2000x64_1_0_0_1_n_n none l r (constant (F := Ideal) S2000x64 .f32 0x00000000#32) (ix2 p o)
      = ∑ k : Fin 64, l (ix2 p k) * r (ix2 k o) := by
  refine (Ideal.matmul_constant_zero_apply dot_S2000x64_S64x64_S2000x64_1_0_0_1_n_n none l r (ix2 p o)).trans ?_
  rw [← Equiv.sum_comp (contrEquiv1 dot_S2000x64_S64x64_S2000x64_1_0_0_1_n_n 64 rfl rfl).symm]
  refine Finset.sum_congr rfl fun j _ => ?_
  have hk : (((contrEquiv1 dot_S2000x64_S64x64_S2000x64_1_0_0_1_n_n 64 rfl rfl).symm j) ⟨0, by decide⟩ : ℕ) = j.val :=
    contrEquiv1_symm_val dot_S2000x64_S64x64_S2000x64_1_0_0_1_n_n 64 rfl rfl j
  have el : dot_S2000x64_S64x64_S2000x64_1_0_0_1_n_n.lhsIdx (ix2 p o) ((contrEquiv1 dot_S2000x64_S64x64_S2000x64_1_0_0_1_n_n 64 rfl rfl).symm j) = ix2 p j := by
    funext a; apply Fin.ext
    match a with
    | ⟨0, _⟩ => exact self_lhs_0 _ _
    | ⟨1, _⟩ => exact (self_lhs_1 _ _).trans hk
  have er : dot_S2000x64_S64x64_S2000x64_1_0_0_1_n_n.rhsIdx (ix2 p o) ((contrEquiv1 dot_S2000x64_S64x64_S2000x64_1_0_0_1_n_n 64 rfl rfl).symm j) = ix2 j o := by
    funext a; apply Fin.ext
    match a with
    | ⟨0, _⟩ => exact (self_rhs_0 _ _).trans hk
    | ⟨1, _⟩ => exact self_rhs_1 _ _
  rw [el, er]

/-- The body's arithmetic at row p and output o: the self product, plus the neighbour product of the sums scaled by
    the reciprocal of max(count, 1) plus its bias, plus the last bias. -/
theorem node_pay_apply (x0 : Vec Ideal S2000x256 .f32) (x1 : Vec Ideal S2000x1 .f32) (x2 : Vec Ideal S2000x64 .f32)
    (x3 : Vec Ideal S256x64 .f32) (x4 : Vec Ideal S1x64 .f32) (x5 : Vec Ideal S64x64 .f32) (x6 : Vec Ideal S1x64 .f32)
    (p : Fin 2000) (o : Fin 64) :
    k1_pay1 (F := Ideal) x0 x1 x3 x4 x2 x5 x6 (ix2 p o)
      = Cert.Spec.nodeRowK (fun j => x0 (ix2 p j)) (x1 (ix2 p (0 : Fin 1))) (fun k => x2 (ix2 p k)) (fun j => x3 (ix2 j o))
          (x4 (ix2 (0 : Fin 1) o)) (fun k => x5 (ix2 k o)) (x6 (ix2 (0 : Fin 1) o)) := by
  unfold k1_pay1 Cert.Spec.nodeRowK
  dsimp only
  simp only [addf_apply, shapeCast_self, self_matmul_apply, neigh_matmul_apply, broadcastTo_1b_ab_apply, truncf_apply, mulf_apply,
    broadcastTo_a1_ab_apply, divf_apply, maximumf_apply, broadcast_apply]
  rfl

/-! ## One block: rows 2000 t … 2000 t + 1999 -/

/-- The body's result at row p of block t is the output's function of the arrays at row 2000 t + p, once each
    row-blocked input is the same rows of its array and each small input is its whole array. -/
theorem node_block_eq (x0 : Vec Ideal S2000x256 .f32) (x1 : Vec Ideal S2000x1 .f32) (x2 : Vec Ideal S2000x64 .f32)
    (x3 : Vec Ideal S256x64 .f32) (x4 : Vec Ideal S1x64 .f32) (x5 : Vec Ideal S64x64 .f32) (x6 : Vec Ideal S1x64 .f32)
    (A0 : FVec Ideal S50000x256 .f32) (A1 : FVec Ideal S50000x1 .f32) (A2 : FVec Ideal S50000x64 .f32)
    (A3 : FVec Ideal S256x64 .f32) (A4 : FVec Ideal S1x64 .f32) (A5 : FVec Ideal S64x64 .f32) (A6 : FVec Ideal S1x64 .f32) (t : Nat)
    (h0 : ∀ (y : S2000x256.Idx) (k : S50000x256.Idx), (k 0).val = 2000 * t + (y 0).val → (k 1).val = (y 1).val → x0 y = A0 k)
    (h1 : ∀ (y : S2000x1.Idx) (k : S50000x1.Idx), (k 0).val = 2000 * t + (y 0).val → (k 1).val = (y 1).val → x1 y = A1 k)
    (h2 : ∀ (y : S2000x64.Idx) (k : S50000x64.Idx), (k 0).val = 2000 * t + (y 0).val → (k 1).val = (y 1).val → x2 y = A2 k)
    (h3 : x3 = A3) (h4 : x4 = A4) (h5 : x5 = A5) (h6 : x6 = A6)
    (y : S2000x64.Idx) (i : S50000x64.Idx) (hi0 : (i 0).val = 2000 * t + (y 0).val) (hi1 : (i 1).val = (y 1).val) :
    k1_pay1 (F := Ideal) x0 x1 x3 x4 x2 x5 x6 y = Cert.Spec.nodeG A0 A1 A2 A3 A4 A5 A6 i := by
  obtain ⟨p, o, rfl⟩ : ∃ (p : Fin 2000) (o : Fin 64), y = ix2 p o := ⟨y 0, y 1, eq_ix2 y⟩
  obtain ⟨n, o', rfl⟩ : ∃ (n : Fin 50000) (o' : Fin 64), i = ix2 n o' := ⟨i 0, i 1, eq_ix2 i⟩
  have hn : n.val = 2000 * t + p.val := hi0
  obtain rfl : o' = o := Fin.ext hi1
  subst h3 h4 h5 h6
  rw [node_pay_apply]
  have e0 : (fun j : Fin 256 => x0 (ix2 p j)) = fun j => A0 (ix2 n j) := funext fun j => h0 (ix2 p j) (ix2 n j) hn rfl
  have e1 : x1 (ix2 p (0 : Fin 1)) = A1 (ix2 n (0 : Fin 1)) := h1 (ix2 p (0 : Fin 1)) (ix2 n (0 : Fin 1)) hn rfl
  have e2 : (fun k : Fin 64 => x2 (ix2 p k)) = fun k => A2 (ix2 n k) := funext fun k => h2 (ix2 p k) (ix2 n k) hn rfl
  rw [e0, e1, e2]
  rfl

/-! ## The blocks of the region's arrays, and the array written back -/

/-- The body loads and stores each staging buffer whole: the offsets, written as a literal pair, are zero on both axes. -/
theorem zero_offsets : (![0, 0] : Fin 2 → Nat) = fun _ => 0 := funext fun a => by fin_cases a <;> rfl

/-- The printed index maps over the 25 grid points: the three row-blocked inputs and the output are at block (t, 0),
    the four small inputs at block (0, 0). -/
theorem node_blocks_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The summed messages' block at point t is rows 2000 t … of the array. -/
theorem nsum_block_apply (c : Dev nD) (t : Fin cfg1.N) (y : S2000x256.Idx) (k : S50000x256.Idx)
    (hk0 : (k 0).val = 2000 * t.val + (y 0).val) (hk1 : (k 1).val = (y 1).val) :
    (iblk1 V c 0 t : Vec Ideal S2000x256 .f32) y = (V c main_v35 : S50000x256.Idx → Elt Ideal .f32) k := by
  obtain ⟨ea, eb, -⟩ := node_blocks_at t
  unfold iblk1
  rw [View.read_apply]
  show V c main_v35 _ = V c main_v35 _
  congr 1
  funext a
  apply Fin.ext
  match a with
  | ⟨0, _⟩ => show win1_0.index t (0 : Fin 2) * 2000 + 1 * (y 0).val = (k 0).val; rw [ea, hk0]; omega
  | ⟨1, _⟩ => show win1_0.index t (1 : Fin 2) * 256 + 1 * (y 1).val = (k 1).val; rw [eb, hk1]; omega

/-- The count column's block at point t is rows 2000 t … of the column. -/
theorem cnt_block_apply (c : Dev nD) (t : Fin cfg1.N) (y : S2000x1.Idx) (k : S50000x1.Idx)
    (hk0 : (k 0).val = 2000 * t.val + (y 0).val) (hk1 : (k 1).val = (y 1).val) :
    (iblk1 V c 1 t : Vec Ideal S2000x1 .f32) y = (V c main_v40 : S50000x1.Idx → Elt Ideal .f32) k := by
  obtain ⟨-, -, ea, eb, -⟩ := node_blocks_at t
  unfold iblk1
  rw [View.read_apply]
  show V c main_v40 _ = V c main_v40 _
  congr 1
  funext a
  apply Fin.ext
  match a with
  | ⟨0, _⟩ => show win1_1.index t (0 : Fin 2) * 2000 + 1 * (y 0).val = (k 0).val; rw [ea, hk0]; omega
  | ⟨1, _⟩ => show win1_1.index t (1 : Fin 2) * 1 + 1 * (y 1).val = (k 1).val; rw [eb, hk1]; omega

/-- The features' block at point t is rows 2000 t … of the features. -/
theorem feat_block_apply (c : Dev nD) (t : Fin cfg1.N) (y : S2000x64.Idx) (k : S50000x64.Idx)
    (hk0 : (k 0).val = 2000 * t.val + (y 0).val) (hk1 : (k 1).val = (y 1).val) :
    (iblk1 V c 2 t : Vec Ideal S2000x64 .f32) y = (V c main_arg0 : S50000x64.Idx → Elt Ideal .f32) k := by
  obtain ⟨-, -, -, -, ea, eb, -⟩ := node_blocks_at t
  unfold iblk1
  rw [View.read_apply]
  show V c main_arg0 _ = V c main_arg0 _
  congr 1
  funext a
  apply Fin.ext
  match a with
  | ⟨0, _⟩ => show win1_2.index t (0 : Fin 2) * 2000 + 1 * (y 0).val = (k 0).val; rw [ea, hk0]; omega
  | ⟨1, _⟩ => show win1_2.index t (1 : Fin 2) * 64 + 1 * (y 1).val = (k 1).val; rw [eb, hk1]; omega

/-- The transposed neighbour projection's block at every point is the whole matrix. -/
theorem wnT_block_eq (c : Dev nD) (t : Fin cfg1.N) :
    (iblk1 V c 3 t : Vec Ideal S256x64 .f32) = (V c main_v41 : S256x64.Idx → Elt Ideal .f32) := by
  obtain ⟨-, -, -, -, -, -, ea, eb, -⟩ := node_blocks_at t
  funext y
  unfold iblk1
  rw [View.read_apply]
  show V c main_v41 _ = V c main_v41 _
  congr 1
  funext a
  apply Fin.ext
  match a with
  | ⟨0, _⟩ => show win1_3.index t (0 : Fin 2) * 256 + 1 * (y 0).val = (y 0).val; rw [ea]; omega
  | ⟨1, _⟩ => show win1_3.index t (1 : Fin 2) * 64 + 1 * (y 1).val = (y 1).val; rw [eb]; omega

/-- The neighbour bias row's block at every point is the whole row. -/
theorem bn_block_eq (c : Dev nD) (t : Fin cfg1.N) :
    (iblk1 V c 4 t : Vec Ideal S1x64 .f32) = (V c main_v42 : S1x64.Idx → Elt Ideal .f32) := by
  obtain ⟨-, -, -, -, -, -, -, -, ea, eb, -⟩ := node_blocks_at t
  funext y
  unfold iblk1
  rw [View.read_apply]
  show V c main_v42 _ = V c main_v42 _
  congr 1
  funext a
  apply Fin.ext
  match a with
  | ⟨0, _⟩ => show win1_4.index t (0 : Fin 2) * 1 + 1 * (y 0).val = (y 0).val; rw [ea]; omega
  | ⟨1, _⟩ => show win1_4.index t (1 : Fin 2) * 64 + 1 * (y 1).val = (y 1).val; rw [eb]; omega

/-- The transposed self projection's block at every point is the whole matrix. -/
theorem wsT_block_eq (c : Dev nD) (t : Fin cfg1.N) :
    (iblk1 V c 5 t : Vec Ideal S64x64 .f32) = (V c main_v43 : S64x64.Idx → Elt Ideal .f32) := by
  obtain ⟨-, -, -, -, -, -, -, -, -, -, ea, eb, -⟩ := node_blocks_at t
  funext y
  unfold iblk1
  rw [View.read_apply]
  show V c main_v43 _ = V c main_v43 _
  congr 1
  funext a
  apply Fin.ext
  match a with
  | ⟨0, _⟩ => show win1_5.index t (0 : Fin 2) * 64 + 1 * (y 0).val = (y 0).val; rw [ea]; omega
  | ⟨1, _⟩ => show win1_5.index t (1 : Fin 2) * 64 + 1 * (y 1).val = (y 1).val; rw [eb]; omega

/-- The last bias row's block at every point is the whole row. -/
theorem bias_block_eq (c : Dev nD) (t : Fin cfg1.N) :
    (iblk1 V c 6 t : Vec Ideal S1x64 .f32) = (V c main_v44 : S1x64.Idx → Elt Ideal .f32) := by
  obtain ⟨-, -, -, -, -, -, -, -, -, -, -, -, ea, eb, -⟩ := node_blocks_at t
  funext y
  unfold iblk1
  rw [View.read_apply]
  show V c main_v44 _ = V c main_v44 _
  congr 1
  funext a
  apply Fin.ext
  match a with
  | ⟨0, _⟩ => show win1_6.index t (0 : Fin 2) * 1 + 1 * (y 0).val = (y 0).val; rw [ea]; omega
  | ⟨1, _⟩ => show win1_6.index t (1 : Fin 2) * 64 + 1 * (y 1).val = (y 1).val; rw [eb]; omega

/-- What point t writes back is block t of the output's function of the arrays the region found. -/
theorem written_back_eq (c : Dev nD) (t : Fin cfg1.N) :
    (dat1 (F := Ideal) V c).flushed 7 t
      = ((cfg1.win 7).blk t).view.read (Elt Ideal)
          (Cert.Spec.nodeG (V c main_v35) (V c main_v40) (V c main_arg0) (V c main_v41) (V c main_v42) (V c main_v43) (V c main_v44)) := by
  show (cfg1.win 7).cut (grid1.coords t) ((dat1 V c).after 7 t) = _
  rw [after1_7]
  unfold out1_7
  rw [View.canon_unit_zero zero_offsets]
  simp only [View.ld_unit_zero (S := S2000x256) zero_offsets, View.ld_unit_zero (S := S2000x1) zero_offsets, View.ld_unit_zero (S := S2000x64) zero_offsets,
    View.ld_unit_zero (S := S256x64) zero_offsets, View.ld_unit_zero (S := S1x64) zero_offsets, View.ld_unit_zero (S := S64x64) zero_offsets]
  obtain ⟨-, -, -, -, -, -, -, -, -, -, -, -, -, -, ea, eb⟩ := node_blocks_at t
  funext j
  show k1_pay1 (F := Ideal) (iblk1 V c 0 t) (iblk1 V c 1 t) (iblk1 V c 3 t) (iblk1 V c 4 t) (iblk1 V c 2 t) (iblk1 V c 5 t) (iblk1 V c 6 t) j
      = Cert.Spec.nodeG (V c main_v35) (V c main_v40) (V c main_arg0) (V c main_v41) (V c main_v42) (V c main_v43) (V c main_v44)
          (((cfg1.win 7).blk t).view.emb j)
  refine node_block_eq (iblk1 V c 0 t) (iblk1 V c 1 t) (iblk1 V c 2 t) (iblk1 V c 3 t) (iblk1 V c 4 t) (iblk1 V c 5 t) (iblk1 V c 6 t)
    (V c main_v35) (V c main_v40) (V c main_arg0) (V c main_v41) (V c main_v42) (V c main_v43) (V c main_v44) t.val
    (nsum_block_apply V c t) (cnt_block_apply V c t) (feat_block_apply V c t) (wnT_block_eq V c t) (bn_block_eq V c t) (wsT_block_eq V c t) (bias_block_eq V c t)
    j (((cfg1.win 7).blk t).view.emb j) ?_ ?_
  · show win1_7.index t (0 : Fin 2) * 2000 + 1 * (j 0).val = 2000 * t.val + (j 0).val
    rw [ea]; omega
  · show win1_7.index t (1 : Fin 2) * 64 + 1 * (j 1).val = (j 1).val
    rw [eb]; omega

/-- An index of the output array is in point t's block iff each coordinate is in the block's range on its axis. -/
theorem mem_out_block (t : Fin cfg1.N) (i : S50000x64.Idx) :
    i ∈ ((cfg1.win 7).blk t).view.set
      ↔ ∀ a : Fin 2, win1_7.index t a * S2000x64.size a ≤ (i a).val ∧ (i a).val < win1_7.index t a * S2000x64.size a + S2000x64.size a := by
  show i ∈ ((View.whole main_v45).slice (win1_7.rect t)).set ↔ _
  rw [View.set_slice_whole, Rect.mem_set_unit]
  exact Iff.rfl

/-- Row r of the output lies in the block of point r / 2000, and every point writes its block back. -/
theorem out_blocks_cover (i : S50000x64.Idx) :
    ∃ t : Fin cfg1.N, (cfg1.win 7).flush t = true ∧ i ∈ ((cfg1.win 7).blk t).view.set := by
  have hN : cfg1.N = 25 := N_1
  have hi0 : (i 0).val < 50000 := idx2_lt0 i
  have hi1 : (i 1).val < 64 := idx2_lt1 i
  have ht : (i 0).val / 2000 < cfg1.N := by rw [hN]; omega
  obtain ⟨-, -, -, -, -, -, -, -, -, -, -, -, -, -, ea, eb⟩ := node_blocks_at ⟨(i 0).val / 2000, ht⟩
  refine ⟨⟨(i 0).val / 2000, ht⟩, flush1_7 _, ?_⟩
  rw [mem_out_block]
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [ea]
    show (i 0).val / 2000 * 2000 ≤ (i 0).val ∧ (i 0).val < (i 0).val / 2000 * 2000 + 2000
    omega
  | ⟨1, _⟩ =>
    show win1_7.index ⟨(i 0).val / 2000, ht⟩ (1 : Fin 2) * 64 ≤ (i 1).val
      ∧ (i 1).val < win1_7.index ⟨(i 0).val / 2000, ht⟩ (1 : Fin 2) * 64 + 64
    rw [eb]
    omega

/-- After the node region, entered at the contents V, the output array is the output's function of the seven
    arrays the region read. -/
theorem arr_eq (c : Dev nD) :
    ((dat1 (F := Ideal) V c).arrAt 7 cfg1.N : FVec Ideal S50000x64 .f32)
      = Cert.Spec.nodeG (V c main_v35) (V c main_v40) (V c main_arg0) (V c main_v41) (V c main_v42) (V c main_v43) (V c main_v44) :=
  (dat1 (F := Ideal) V c).arrAt_eq_of_cover 7
    (Cert.Spec.nodeG (V c main_v35) (V c main_v40) (V c main_arg0) (V c main_v41) (V c main_v42) (V c main_v43) (V c main_v44))
    (fun t _ => written_back_eq V c t) out_blocks_cover

end Cert.KernelIdeal.NodeValue

end
-- ==== Proof.KTerm.lean ====
/-
  The kernel program's host operations around its two pallas_calls, as terms of the argument arrays.

  Before the edge stage: each index column is wrapped (a negative index has the node count added) and made a
  column; the relative positions are the gathered destination rows minus the gathered source rows; the source
  features are gathered; the spatial weights are transposed, their bias made a row; and the matrix that repeats
  each of 64 features four times is built from two iotas compared for equality.
  Between the stages: the messages and a vector of ones are scatter-added by destination onto zeros, the counts
  made a column; the two projections are transposed and their biases made rows.
-/
import proofs.«102554_j15461882266185_1_alg».proof.Proof.Gen.KernelIdeal

noncomputable section

namespace Cert.KernelIdeal.Term

open Idealize.ShloMosaic Cert.KernelIdeal
open Cert.KernelIdeal.Facts₀

variable {F : FTy → Type} [FloatOps F]

/-- An index vector wrapped (negative: plus the node count) and made a column. -/
def wrapCol (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The relative positions: destination rows minus source rows. -/
def rel (pos : FVec F S50000x3 .f32) (src dst : IVec S800000 32) : FVec F S800000x3 .f32 :=
  subf (Host.gather gather_S50000x3_S800000x1_S800000x3_1_0_n_n_0_1_13 pos (wrapCol dst))
    (Host.gather gather_S50000x3_S800000x1_S800000x3_1_0_n_n_0_1_13 pos (wrapCol src))

/-- The source nodes' features. -/
def fsrc (feat : FVec F S50000x64 .f32) (src : IVec S800000 32) : FVec F S800000x64 .f32 :=
  Host.gather gather_S50000x64_S800000x1_S800000x64_1_0_n_n_0_1_164 feat (wrapCol src)

/-- The spatial weights transposed. -/
def wspT (Wsp : FVec F S256x3 .f32) : FVec F S3x256 .f32 := transpose S3x256 [1, 0] Wsp transposes_S256x3_S3x256_1_0

/-- The spatial bias as a row. -/
def bsp2 (bsp : FVec F S256 .f32) : FVec F S1x256 .f32 := shapeCast S1x256 bsp shapeCasts_S256_S1x256

/-- The repeat matrix: entry (i, 4 i' + h) is one when i = i' and zero otherwise. -/
def rmat : FVec F S64x256 .f32 :=
  shapeCast S64x256
    (broadcastInDim S64x64x4 ![0, 1] bcast_S64x64_S64x64x4_0_1
      (uitofp .f32 (cmpi .eq (addi (iotaInDim S64x64 32 0) (broadcastInDim S64x64 ![] bcast_S_S64x64 (constantI S_ 32 0#32)))
        (iotaInDim S64x64 32 1)) : FVec F S64x64 .f32))
    shapeCasts_S64x64x4_S64x256

/-- The destination indices as a column (not wrapped: the scatter reads them as they are). -/
def dstCol (dst : IVec S800000 32) : IVec S800000x1 32 := broadcastInDim S800000x1 ![0] bcast_S800000_S800000x1_0 dst

/-- The messages summed by destination. -/
def nsum (dst : IVec S800000 32) (msg : FVec F S800000x256 .f32) : FVec F S50000x256 .f32 :=
  Host.scatterAdd scatter_S50000x256_S800000x1_S800000x256_1_0_0_1
    (broadcastInDim S50000x256 ![] bcast_S_S50000x256 (constant S_ .f32 0x00000000#32)) (dstCol dst) msg

/-- The number of edges into each node. -/
def cnt (dst : IVec S800000 32) : FVec F S50000 .f32 :=
  Host.scatterAdd scatter_S50000_S800000x1_S800000_n_0_0_1
    (broadcastInDim S50000 ![] bcast_S_S50000 (constant S_ .f32 0x00000000#32)) (dstCol dst)
    (broadcastInDim S800000 ![] bcast_S_S800000 (constant S_ .f32 0x3F800000#32))

/-- The counts as a column. -/
def cnt2 (dst : IVec S800000 32) : FVec F S50000x1 .f32 := shapeCast S50000x1 (cnt (F := F) dst) shapeCasts_S50000_S50000x1

/-- The neighbour projection transposed, its bias as a row; the self projection transposed, the last bias as a row. -/
def wnT (Wn : FVec F S64x256 .f32) : FVec F S256x64 .f32 := transpose S256x64 [1, 0] Wn transposes_S64x256_S256x64_1_0
def row64 (b : FVec F S64 .f32) : FVec F S1x64 .f32 := shapeCast S1x64 b shapeCasts_S64_S1x64
def wsT (Ws : FVec F S64x64 .f32) : FVec F S64x64 .f32 := transpose S64x64 [1, 0] Ws transposes_S64x64_S64x64_1_0

end Cert.KernelIdeal.Term

end
-- ==== Proof.HostVals.lean ====
/-
  What the two stretches of host operations leave in the buffers the two regions read, as terms of the
  argument arrays (and, for the neighbour sum, of the message array the edge region left).
-/
import proofs.«102554_j15461882266185_1_alg».proof.Proof.Gen.KernelIdeal.Frame
import proofs.«102554_j15461882266185_1_alg».proof.Proof.KTerm
import Idealize.ShloMosaic.Lib.StableHlo.Run

noncomputable section

open Idealize.ShloMosaic Idealize.ShloMosaic.TcCoe Idealize.SL.Sem
open Idealize.ShloMosaic.Pipeline (Dat)

namespace Cert.KernelIdeal.HostVals

open Cert.KernelIdeal Cert.KernelIdeal.Gen

variable {F : FTy → Type} [FloatOps F]
variable (m : (ℓ : Loc nD τ sig) → Buf (Elt F) ℓ) (ρ : Dev nD → PrngReg)

/-! ## At the edge region's entry -/

theorem v14 (c : Dev nD) : V1 m ρ c main_v14
    = Term.rel (m ((c : Thread nD τ).loc main_arg1)) (m ((c : Thread nD τ).loc main_arg2)) (m ((c : Thread nD τ).loc main_arg3)) := by
  show StableHlo.after hostOps0 (W0 m ρ c) (Proc.devRef .tc main_v14) = _
  after_results_simp
  unfold Term.rel Term.wrapCol
  rfl
theorem v21 (c : Dev nD) : V1 m ρ c main_v21 = Term.fsrc (m ((c : Thread nD τ).loc main_arg0)) (m ((c : Thread nD τ).loc main_arg2)) := by
  show StableHlo.after hostOps0 (W0 m ρ c) (Proc.devRef .tc main_v21) = _
  after_results_simp
  unfold Term.fsrc Term.wrapCol
  rfl
theorem v22 (c : Dev nD) : V1 m ρ c main_v22 = Term.wspT (m ((c : Thread nD τ).loc main_arg5)) := by
  show StableHlo.after hostOps0 (W0 m ρ c) (Proc.devRef .tc main_v22) = _
  after_results_simp
  unfold Term.wspT
  rfl
theorem v23 (c : Dev nD) : V1 m ρ c main_v23 = Term.bsp2 (m ((c : Thread nD τ).loc main_arg6)) := by
  show StableHlo.after hostOps0 (W0 m ρ c) (Proc.devRef .tc main_v23) = _
  after_results_simp
  unfold Term.bsp2
  rfl
theorem v31 (c : Dev nD) : V1 m ρ c main_v31 = Term.rmat (F := F) := by
  show StableHlo.after hostOps0 (W0 m ρ c) (Proc.devRef .tc main_v31) = _
  after_results_simp
  unfold Term.rmat
  rfl

/-! ## At the node region's entry

An argument array is written by no host operation and is no array of the edge region, so at the edge region's
exit it still holds its launch contents. -/

/-- Closes "no operation of a stretch writes this buffer": the stretch's operations one by one, each writing a
    single reference other than the buffer's. -/
local macro "host_untouched" : tactic =>
  `(tactic| (refine List.forall_iff_forall_mem.mp ?_
             simp only [hostOps0, hostOps1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) :=
          StableHlo.after_of_forall_not_mem (b := Proc.devRef .tc main_arg0) _ _ (by host_untouched)
    _ = m ((c : Thread nD τ).loc main_arg0) := rfl
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) :=
          StableHlo.after_of_forall_not_mem (b := Proc.devRef .tc main_arg3) _ _ (by host_untouched)
    _ = m ((c : Thread nD τ).loc main_arg3) := rfl
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) :=
          StableHlo.after_of_forall_not_mem (b := Proc.devRef .tc main_arg4) _ _ (by host_untouched)
    _ = m ((c : Thread nD τ).loc main_arg4) := rfl
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) :=
          StableHlo.after_of_forall_not_mem (b := Proc.devRef .tc main_arg7) _ _ (by host_untouched)
    _ = m ((c : Thread nD τ).loc main_arg7) := rfl
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) :=
          StableHlo.after_of_forall_not_mem (b := Proc.devRef .tc main_arg8) _ _ (by host_untouched)
    _ = m ((c : Thread nD τ).loc main_arg8) := rfl
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) :=
          StableHlo.after_of_forall_not_mem (b := Proc.devRef .tc main_arg9) _ _ (by host_untouched)
    _ = m ((c : Thread nD τ).loc main_arg9) := rfl

theorem v35 (c : Dev nD) : V3 m ρ c main_v35 = Term.nsum (m ((c : Thread nD τ).loc main_arg3)) (W2 m ρ c (Proc.devRef .tc main_v32)) := by
  show StableHlo.after hostOps1 (W2 m ρ c) (Proc.devRef .tc main_v35) = _
  after_results_simp
  rw [W2_arg3 m ρ c]
  unfold Term.nsum Term.dstCol
  rfl
theorem v40 (c : Dev nD) : V3 m ρ c main_v40 = Term.cnt2 (F := F) (m ((c : Thread nD τ).loc main_arg3)) := by
  show StableHlo.after hostOps1 (W2 m ρ c) (Proc.devRef .tc main_v40) = _
  after_results_simp
  rw [W2_arg3 m ρ c]
  unfold Term.cnt2 Term.cnt Term.dstCol
  rfl
theorem a0 (c : Dev nD) : V3 m ρ c main_arg0 = m ((c : Thread nD τ).loc main_arg0) :=
  calc V3 m ρ c main_arg0
    _ = W2 m ρ c (Proc.devRef .tc main_arg0) :=
          StableHlo.after_of_forall_not_mem (b := Proc.devRef .tc main_arg0) _ _ (by host_untouched)
    _ = m ((c : Thread nD τ).loc main_arg0) := W2_arg0 m ρ c
theorem v41 (c : Dev nD) : V3 m ρ c main_v41 = Term.wnT (m ((c : Thread nD τ).loc main_arg7)) := by
  show StableHlo.after hostOps1 (W2 m ρ c) (Proc.devRef .tc main_v41) = _
  after_results_simp
  rw [W2_arg7 m ρ c]
  unfold Term.wnT
  rfl
theorem v42 (c : Dev nD) : V3 m ρ c main_v42 = Term.row64 (m ((c : Thread nD τ).loc main_arg8)) := by
  show StableHlo.after hostOps1 (W2 m ρ c) (Proc.devRef .tc main_v42) = _
  after_results_simp
  rw [W2_arg8 m ρ c]
  unfold Term.row64
  rfl
theorem v43 (c : Dev nD) : V3 m ρ c main_v43 = Term.wsT (m ((c : Thread nD τ).loc main_arg4)) := by
  show StableHlo.after hostOps1 (W2 m ρ c) (Proc.devRef .tc main_v43) = _
  after_results_simp
  rw [W2_arg4 m ρ c]
  unfold Term.wsT
  rfl
theorem v44 (c : Dev nD) : V3 m ρ c main_v44 = Term.row64 (m ((c : Thread nD τ).loc main_arg9)) := by
  show StableHlo.after hostOps1 (W2 m ρ c) (Proc.devRef .tc main_v44) = _
  after_results_simp
  rw [W2_arg9 m ρ c]
  unfold Term.row64
  rfl

end Cert.KernelIdeal.HostVals

end
-- ==== Proof.Layout.lean ====
/-
  The kernel's operands as the host prepares them, read at an index: a transposed matrix at (k, q) is the matrix
  at (q, k); a vector made a row (or a column) at (0, q) (or (n, 0)) is the vector at q (or n); and the repeat
  matrix at (a, q) is one when a = q / 4 and zero otherwise, so the product with it picks feature q / 4.  With
  these the kernel's two stage functions are the reference's.
-/
import proofs.«102554_j15461882266185_1_alg».proof.Proof.KTerm
import proofs.«102554_j15461882266185_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layout

open Idealize.ShloMosaic Idealize.ShloMosaic.ValueIdx Cert.KernelIdeal
open scoped BigOperators

/-! ## Transposes, rows and columns read at an index -/

/-- The transposed spatial weights at (k, q) are the weights at (q, k). -/
theorem wspT_apply (Wsp : FVec Ideal S256x3 .f32) (k : Fin 3) (q : Fin 256) : Term.wspT Wsp (ix2 k q) = Wsp (ix2 q k) := by
  unfold Term.wspT
  exact transpose_ix2_apply Wsp _ k q

/-- The transposed neighbour projection at (j, o) is the projection at (o, j). -/
theorem wnT_apply (Wn : FVec Ideal S64x256 .f32) (j : Fin 256) (o : Fin 64) : Term.wnT Wn (ix2 j o) = Wn (ix2 o j) := by
  unfold Term.wnT
  exact transpose_ix2_apply Wn _ j o

/-- The transposed self projection at (k, o) is the projection at (o, k). -/
theorem wsT_apply (Ws : FVec Ideal S64x64 .f32) (k : Fin 64) (o : Fin 64) : Term.wsT Ws (ix2 k o) = Ws (ix2 o k) := by
  unfold Term.wsT
  exact transpose_ix2_apply Ws _ k o

/-- The spatial bias as a row, at (0, q), is the bias at q. -/
theorem bsp2_apply (bsp : FVec Ideal S256 .f32) (q : Fin 256) : Term.bsp2 bsp (ix2 (0 : Fin 1) q) = bsp (ix1 q) := by
  unfold Term.bsp2
  exact shapeCast_a_1a_apply bsp _ 0 q

/-- A bias over 64 channels as a row, at (0, o), is the bias at o. -/
theorem row64_apply (b : FVec Ideal S64 .f32) (o : Fin 64) : Term.row64 b (ix2 (0 : Fin 1) o) = b (ix1 o) := by
  unfold Term.row64
  exact shapeCast_a_1a_apply b _ 0 o

/-- A vector over the nodes made a column, at (n, 0), is the vector at n. -/
theorem col_apply (c : FVec Ideal S50000 .f32) (h : S50000.ShapeCasts S50000x1) (n : Fin 50000) :
    shapeCast S50000x1 c h (ix2 n (0 : Fin 1)) = c (ix1 n) :=
  shapeCast_apply c h _ _ (by
    rw [Shape.rowMajor_val_two, Shape.rowMajor_val_one]
    show n.val = n.val * 1 + 0
    omega)

/-- The counts as a column, at (n, 0), are the counts at n. -/
theorem cnt2_apply (dst : IVec S800000 32) (n : Fin 50000) :
    Term.cnt2 (F := Ideal) dst (ix2 n (0 : Fin 1)) = Term.cnt (F := Ideal) dst (ix1 n) := by
  unfold Term.cnt2
  exact col_apply _ _ n

/-! ## The repeat matrix -/

/-- Two numbers below 64 are equal as 32-bit words exactly when they are equal. -/
theorem ofNat_eq_iff (a b : Nat) (ha : a < 64) (hb : b < 64) : BitVec.ofNat 32 a = BitVec.ofNat 32 b ↔ a = b := by
  constructor
  · intro h
    have h' := congrArg BitVec.toNat h
    simp only [BitVec.toNat_ofNat] at h'
    omega
  · intro h; rw [h]

/-- The comparison word of two numbers below 64 (the first with the zero word added), as an extended real: one when
    they are equal, zero otherwise. -/
theorem uitofp_cmp (a b : Nat) (ha : a < 64) (hb : b < 64) :
    FloatOps.uitofp (F := Ideal) .f32 (IntOp.cmpi .eq (IntOp.addi (BitVec.ofNat 32 a) 0#32) (BitVec.ofNat 32 b))
      = if a = b then 1 else 0 := by
  have h0 : IntOp.addi (BitVec.ofNat 32 a) 0#32 = BitVec.ofNat 32 a := by
    unfold IntOp.addi; exact BitVec.add_zero _
  rw [h0]
  by_cases hab : a = b
  · rw [if_pos hab, hab]
    have : IntOp.cmpi .eq (BitVec.ofNat 32 b) (BitVec.ofNat 32 b) = 1#1 := by
      unfold IntOp.cmpi; simp
    rw [this]
    show (((1#1 : BitVec 1).toNat : ℝ) : EReal) = 1
    simp
  · rw [if_neg hab]
    have : IntOp.cmpi .eq (BitVec.ofNat 32 a) (BitVec.ofNat 32 b) = 0#1 := by
      have hne : ¬ BitVec.ofNat 32 a = BitVec.ofNat 32 b := fun h => hab ((ofNat_eq_iff a b ha hb).1 h)
      unfold IntOp.cmpi
      show BitVec.ofBool (BitVec.ofNat 32 a == BitVec.ofNat 32 b) = 0#1
      rw [beq_eq_false_iff_ne.2 hne]; rfl
    rw [this]
    show (((0#1 : BitVec 1).toNat : ℝ) : EReal) = 0
    simp

/-- The repeat matrix at (a, q): column q = 4 a' + h of the reshape is entry (a, a', h) of the broadcast, which is
    entry (a, a') of the comparison of the two iotas: one when a = q / 4 and zero otherwise. -/
theorem rmat_apply (a : Fin 64) (q : Fin 256) : Term.rmat (F := Ideal) (ix2 a q) = if a.val = q.val / 4 then 1 else 0 := by
  have hq := q.isLt
  unfold Term.rmat
  refine (shapeCast_apply _ _ (ix2 a q) (ix3 a (⟨q.val / 4, by omega⟩ : Fin 64) (⟨q.val % 4, by omega⟩ : Fin 4)) ?_).trans ?_
  · rw [Shape.rowMajor_val_three, Shape.rowMajor_val_two]
    show (a.val * 64 + q.val / 4) * 4 + q.val % 4 = a.val * 256 + q.val
    omega
  refine (broadcastInDim_apply _ _ _ _ (ix2 a (⟨q.val / 4, by omega⟩ : Fin 64))
    (fun c => match c with | ⟨0, _⟩ => rfl | ⟨1, _⟩ => rfl)).trans ?_
  exact uitofp_cmp a.val (q.val / 4) a.isLt (by omega)

/-- The product of a row of 64 features with column q of the repeat matrix is feature q / 4. -/
theorem sum_rmat (f : Fin 64 → EReal) (q : Fin 256) :
    ∑ a : Fin 64, f a * Term.rmat (F := Ideal) (ix2 a q) = f (⟨q.val / 4, by have := q.isLt; omega⟩ : Fin 64) := by
  refine Cert.Spec.sum_pick f (fun a => Term.rmat (F := Ideal) (ix2 a q)) _ ?_ ?_
  · show Term.rmat (F := Ideal) (ix2 _ q) = 1
    rw [rmat_apply]; exact if_pos rfl
  · intro i hi
    show Term.rmat (F := Ideal) (ix2 i q) = 0
    rw [rmat_apply]
    exact if_neg (fun h => hi (Fin.ext h))

/-! ## The two stages -/

/-- The edge stage over the host-prepared operands is the messages' function. -/
theorem edge_eq (r : FVec Ideal S800000x3 .f32) (fs : FVec Ideal S800000x64 .f32) (Wsp : FVec Ideal S256x3 .f32) (bsp : FVec Ideal S256 .f32) :
    Cert.Spec.edgeG r fs (Term.wspT Wsp) (Term.bsp2 bsp) (Term.rmat (F := Ideal)) = Cert.Spec.msgSpec r fs Wsp bsp := by
  funext i
  unfold Cert.Spec.edgeG Cert.Spec.msgSpec
  dsimp only
  rw [bsp2_apply, sum_rmat (fun a => fs (ix2 _ a))]
  simp only [wspT_apply]

/-- The node stage over the host-prepared operands is the output's function. -/
theorem node_eq (ns : FVec Ideal S50000x256 .f32) (dst : IVec S800000 32) (feat : FVec Ideal S50000x64 .f32) (Wn : FVec Ideal S64x256 .f32)
    (bn : FVec Ideal S64 .f32) (Ws : FVec Ideal S64x64 .f32) (bias : FVec Ideal S64 .f32) :
    Cert.Spec.nodeG ns (Term.cnt2 (F := Ideal) dst) feat (Term.wnT Wn) (Term.row64 bn) (Term.wsT Ws) (Term.row64 bias)
      = Cert.Spec.outSpec ns (Term.cnt (F := Ideal) dst) feat Wn bn Ws bias := by
  funext i
  unfold Cert.Spec.nodeG Cert.Spec.outSpec
  dsimp only
  rw [cnt2_apply, row64_apply, row64_apply, Cert.Spec.nodeRowK_eq_nodeRowR]
  simp only [wnT_apply, wsT_apply]

end Cert.KernelIdeal.Layout

end
-- ==== Proof.RefTerm.lean ====
/-
  The reference program as one term of its argument arrays, stage by stage.

  The relative positions and source features are gathered as in the kernel's program.  The norm of each
  relative position (squares summed along the row, the sum made a column, its square root) plus eps divides
  the position plus one; the quotient meets the transposed spatial weights in a dot product, the bias is added,
  and the leaky rectifier (x where x >= 0, slope * x elsewhere) gives the activation.  Seen as [E, 64, 4] it is
  multiplied by the source features repeated along the last axis, and flattened back: the messages.  They, and a
  vector of ones, are scatter-added by destination; the sum is divided by max(count, 1) and projected, the self
  projection and the two biases added.
-/
import proofs.«102554_j15461882266185_1_alg».proof.Proof.Gen.ReferenceIdeal

noncomputable section

namespace Cert.ReferenceIdeal.Term

open Idealize.ShloMosaic Cert.ReferenceIdeal
open Cert.ReferenceIdeal.Facts₀

variable {F : FTy → Type} [FloatOps F]

/-- An index vector wrapped (negative: plus the node count) and made a column. -/
def wrapCol (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The relative positions: destination rows minus source rows. -/
def rel (pos : FVec F S50000x3 .f32) (src dst : IVec S800000 32) : FVec F S800000x3 .f32 :=
  subf (Host.gather gather_S50000x3_S800000x1_S800000x3_1_0_n_n_0_1_13 pos (wrapCol dst))
    (Host.gather gather_S50000x3_S800000x1_S800000x3_1_0_n_n_0_1_13 pos (wrapCol src))

/-- The source nodes' features. -/
def fsrc (feat : FVec F S50000x64 .f32) (src : IVec S800000 32) : FVec F S800000x64 .f32 :=
  Host.gather gather_S50000x64_S800000x1_S800000x64_1_0_n_n_0_1_164 feat (wrapCol src)

/-- The norm of each relative position, as a column. -/
def norm (r : FVec F S800000x3 .f32) : FVec F S800000x1 .f32 :=
  Host.sqrt (broadcastInDim S800000x1 ![0] bcast_S800000_S800000x1_0
    (Host.reduceAdd (mulf r r) (constant S_ .f32 0x00000000#32) reducesTo_S800000x3_S800000_d1 h_S_))

/-- The weighted position: (r + 1) / (norm r + eps). -/
def wpos (r : FVec F S800000x3 .f32) : FVec F S800000x3 .f32 :=
  Host.divf (addf r (broadcastInDim S800000x3 ![] bcast_S_S800000x3 (constant S_ .f32 0x3F800000#32)))
    (broadcastInDim S800000x3 ![0, 1] bcast_S800000x1_S800000x3_0_1
      (addf (norm r) (broadcastInDim S800000x1 ![] bcast_S_S800000x1 (constant S_ .f32 0x33D6BF95#32))))

/-- The linear layer on the weighted position. -/
def lin (r : FVec F S800000x3 .f32) (Wsp : FVec F S256x3 .f32) (bsp : FVec F S256 .f32) : FVec F S800000x256 .f32 :=
  addf (Host.dotGeneral dot_S800000x3_S3x256_S800000x256_1_0_0_1_n_n none (wpos r) (transpose S3x256 [1, 0] Wsp transposes_S256x3_S3x256_1_0))
    (broadcastInDim S800000x256 ![0, 1] bcast_S1x256_S800000x256_0_1 (broadcastInDim S1x256 ![1] bcast_S256_S1x256_1 bsp))

/-- The leaky rectifier. -/
def leaky (x : FVec F S800000x256 .f32) : FVec F S800000x256 .f32 :=
  select (cmpf .oge x (broadcastInDim S800000x256 ![] bcast_S_S800000x256 (constant S_ .f32 0x00000000#32))) x
    (mulf (broadcastInDim S800000x256 ![] bcast_S_S800000x256 (id (constant S_ .f32 0x3C23D70A#32))) x)

/-- The messages: the activation seen as [E, 64, 4] times the source features repeated, flattened. -/
def msg (r : FVec F S800000x3 .f32) (fs : FVec F S800000x64 .f32) (Wsp : FVec F S256x3 .f32) (bsp : FVec F S256 .f32) :
    FVec F S800000x256 .f32 :=
  shapeCast S800000x256
    (mulf (shapeCast S800000x64x4 (leaky (lin r Wsp bsp)) shapeCasts_S800000x256_S800000x64x4)
      (broadcastInDim S800000x64x4 ![0, 1, 2] bcast_S800000x64x1_S800000x64x4_0_1_2
        (broadcastInDim S800000x64x1 ![0, 1] bcast_S800000x64_S800000x64x1_0_1 fs)))
    shapeCasts_S800000x64x4_S800000x256

/-- The destination indices as a column. -/
def dstCol (dst : IVec S800000 32) : IVec S800000x1 32 := broadcastInDim S800000x1 ![0] bcast_S800000_S800000x1_0 dst

/-- The messages summed by destination. -/
def nsum (dst : IVec S800000 32) (msg : FVec F S800000x256 .f32) : FVec F S50000x256 .f32 :=
  Host.scatterAdd scatter_S50000x256_S800000x1_S800000x256_1_0_0_1
    (broadcastInDim S50000x256 ![] bcast_S_S50000x256 (constant S_ .f32 0x00000000#32)) (dstCol dst) msg

/-- The number of edges into each node. -/
def cnt (dst : IVec S800000 32) : FVec F S50000 .f32 :=
  Host.scatterAdd scatter_S50000_S800000x1_S800000_n_0_0_1
    (broadcastInDim S50000 ![] bcast_S_S50000 (constant S_ .f32 0x00000000#32)) (dstCol dst)
    (broadcastInDim S800000 ![] bcast_S_S800000 (constant S_ .f32 0x3F800000#32))

/-- The mean and the projections: (feat Ws^T + ((ns / max(cnt, 1)) Wn^T + bn)) + bias. -/
def tail (ns : FVec F S50000x256 .f32) (ct : FVec F S50000 .f32) (feat : FVec F S50000x64 .f32) (Wn : FVec F S64x256 .f32)
    (bn : FVec F S64 .f32) (Ws : FVec F S64x64 .f32) (bias : FVec F S64 .f32) : FVec F S50000x64 .f32 :=
  addf
    (addf
      (Host.dotGeneral dot_S50000x64_S64x64_S50000x64_1_0_0_1_n_n none feat (transpose S64x64 [1, 0] Ws transposes_S64x64_S64x64_1_0))
      (addf
        (Host.dotGeneral dot_S50000x256_S256x64_S50000x64_1_0_0_1_n_n none
          (Host.divf ns (broadcastInDim S50000x256 ![0, 1] bcast_S50000x1_S50000x256_0_1
            (broadcastInDim S50000x1 ![0] bcast_S50000_S50000x1_0
              (maximumf ct (broadcastInDim S50000 ![] bcast_S_S50000 (constant S_ .f32 0x3F800000#32))))))
          (transpose S256x64 [1, 0] Wn transposes_S64x256_S256x64_1_0))
        (broadcastInDim S50000x64 ![0, 1] bcast_S1x64_S50000x64_0_1 (broadcastInDim S1x64 ![1] bcast_S64_S1x64_1 bn))))
    (broadcastInDim S50000x64 ![0, 1] bcast_S1x64_S50000x64_0_1 (broadcastInDim S1x64 ![1] bcast_S64_S1x64_1 bias))

/-- The reference's result. -/
def out (feat : FVec F S50000x64 .f32) (pos : FVec F S50000x3 .f32) (src dst : IVec S800000 32) (Ws : FVec F S64x64 .f32)
    (Wsp : FVec F S256x3 .f32) (bsp : FVec F S256 .f32) (Wn : FVec F S64x256 .f32) (bn : FVec F S64 .f32) (bias : FVec F S64 .f32) :
    FVec F S50000x64 .f32 :=
  tail (nsum dst (msg (rel pos src dst) (fsrc feat src) Wsp bsp)) (cnt (F := F) dst) feat Wn bn Ws bias

end Cert.ReferenceIdeal.Term

end
-- ==== Proof.RefRun.lean ====
/-
  The reference program's run: its @main, with the three functions it calls written out at their calls, is a
  straight line of host operations, so every weakly fair execution terminates with each buffer at the
  operations' composed term of the launch contents; the result buffer's term is the reference's term.
-/
import proofs.«102554_j15461882266185_1_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the bodies of the three functions it calls written out where they are called:
    the norm's five (the squares, the zero, the row sums, the column, the square root) over the first call's
    buffers, and the leaky rectifier's six with the selection it calls over the second call's. -/
abbrev ops : List (HloOp τ sig (Elt F)) :=
  [ nullary main_c (constantI S_ 32 0#32),
    unary main_c main_v0 (broadcastInDim S800000 ![] bcast_S_S800000),
    binary main_arg3 main_v0 main_v1 (cmpi .slt),
    nullary main_c_0 (constantI S_ 32 50000#32),
    unary main_c_0 main_v2 (broadcastInDim S800000 ![] bcast_S_S800000),
    binary main_arg3 main_v2 main_v3 addi,
    ternary main_v1 main_v3 main_arg3 main_v4 select,
    unary main_v4 main_v5 (broadcastInDim S800000x1 ![0] bcast_S800000_S800000x1_0),
    binary main_arg1 main_v5 main_v6 (fun x i => Host.gather gather_S50000x3_S800000x1_S800000x3_1_0_n_n_0_1_13 x i),
    nullary main_c_1 (constantI S_ 32 0#32),
    unary main_c_1 main_v7 (broadcastInDim S800000 ![] bcast_S_S800000),
    binary main_arg2 main_v7 main_v8 (cmpi .slt),
    nullary main_c_2 (constantI S_ 32 50000#32),
    unary main_c_2 main_v9 (broadcastInDim S800000 ![] bcast_S_S800000),
    binary main_arg2 main_v9 main_v10 addi,
    ternary main_v8 main_v10 main_arg2 main_v11 select,
    unary main_v11 main_v12 (broadcastInDim S800000x1 ![0] bcast_S800000_S800000x1_0),
    binary main_arg1 main_v12 main_v13 (fun x i => Host.gather gather_S50000x3_S800000x1_S800000x3_1_0_n_n_0_1_13 x i),
    binary main_v6 main_v13 main_v14 subf,
    TRef.binary (.of main_v14) (.of main_v14) main_call0.v0 mulf,
    TRef.nullary main_call0.cst (constant S_ .f32 0x00000000#32),
    TRef.binary main_call0.v0 main_call0.cst main_call0.v1 (fun x v => Host.reduceAdd x v reducesTo_S800000x3_S800000_d1 h_S_),
    TRef.unary main_call0.v1 main_call0.v2 (broadcastInDim S800000x1 ![0] bcast_S800000_S800000x1_0),
    TRef.unary main_call0.v2 main_call0.v3 Host.sqrt,
    nullary main_cst (constant S_ .f32 0x33D6BF95#32),
    unary main_cst main_v16 (broadcastInDim S800000x1 ![] bcast_S_S800000x1),
    binary main_v15 main_v16 main_v17 addf,
    nullary main_cst_3 (constant S_ .f32 0x3F800000#32),
    unary main_cst_3 main_v18 (broadcastInDim S800000x3 ![] bcast_S_S800000x3),
    binary main_v14 main_v18 main_v19 addf,
    unary main_v17 main_v20 (broadcastInDim S800000x3 ![0, 1] bcast_S800000x1_S800000x3_0_1),
    binary main_v19 main_v20 main_v21 Host.divf,
    unary main_arg5 main_v22 (transpose S3x256 [1, 0] · transposes_S256x3_S3x256_1_0),
    binary main_v21 main_v22 main_v23 (fun l r => Host.dotGeneral dot_S800000x3_S3x256_S800000x256_1_0_0_1_n_n none l r),
    unary main_arg6 main_v24 (broadcastInDim S1x256 ![1] bcast_S256_S1x256_1),
    unary main_v24 main_v25 (broadcastInDim S800000x256 ![0, 1] bcast_S1x256_S800000x256_0_1),
    binary main_v23 main_v25 main_v26 addf,
    nullary main_cst_4 (constant S_ .f32 0x3C23D70A#32),
    TRef.nullary main_call1.cst (constant S_ .f32 0x00000000#32),
    TRef.unary main_call1.cst main_call1.v0 (broadcastInDim S800000x256 ![] bcast_S_S800000x256),
    TRef.binary (.of main_v26) main_call1.v0 main_call1.v1 (cmpf .oge),
    TRef.unary (.of main_cst_4) main_call1.v2 id,
    TRef.unary main_call1.v2 main_call1.v3 (broadcastInDim S800000x256 ![] bcast_S_S800000x256),
    TRef.binary main_call1.v3 (.of main_v26) main_call1.v4 mulf,
    TRef.ternary main_call1.v1 (.of main_v26) main_call1.v4 main_call1.call0.v0 select,
    reshape main_v27 main_v28 rfl shapeCasts_S800000x256_S800000x64x4,
    nullary main_c_5 (constantI S_ 32 0#32),
    unary main_c_5 main_v29 (broadcastInDim S800000 ![] bcast_S_S800000),
    binary main_arg2 main_v29 main_v30 (cmpi .slt),
    nullary main_c_6 (constantI S_ 32 50000#32),
    unary main_c_6 main_v31 (broadcastInDim S800000 ![] bcast_S_S800000),
    binary main_arg2 main_v31 main_v32 addi,
    ternary main_v30 main_v32 main_arg2 main_v33 select,
    unary main_v33 main_v34 (broadcastInDim S800000x1 ![0] bcast_S800000_S800000x1_0),
    binary main_arg0 main_v34 main_v35 (fun x i => Host.gather gather_S50000x64_S800000x1_S800000x64_1_0_n_n_0_1_164 x i),
    unary main_v35 main_v36 (broadcastInDim S800000x64x1 ![0, 1] bcast_S800000x64_S800000x64x1_0_1),
    unary main_v36 main_v37 (broadcastInDim S800000x64x4 ![0, 1, 2] bcast_S800000x64x1_S800000x64x4_0_1_2),
    binary main_v28 main_v37 main_v38 mulf,
    reshape main_v38 main_v39 rfl shapeCasts_S800000x64x4_S800000x256,
    nullary main_cst_7 (constant S_ .f32 0x00000000#32),
    unary main_cst_7 main_v40 (broadcastInDim S50000x256 ![] bcast_S_S50000x256),
    unary main_arg3 main_v41 (broadcastInDim S800000x1 ![0] bcast_S800000_S800000x1_0),
    ternary main_v40 main_v41 main_v39 main_v42 (fun x i u => Host.scatterAdd scatter_S50000x256_S800000x1_S800000x256_1_0_0_1 x i u),
    nullary main_cst_8 (constant S_ .f32 0x3F800000#32),
    unary main_cst_8 main_v43 (broadcastInDim S800000 ![] bcast_S_S800000),
    nullary main_cst_9 (constant S_ .f32 0x00000000#32),
    unary main_cst_9 main_v44 (broadcastInDim S50000 ![] bcast_S_S50000),
    unary main_arg3 main_v45 (broadcastInDim S800000x1 ![0] bcast_S800000_S800000x1_0),
    ternary main_v44 main_v45 main_v43 main_v46 (fun x i u => Host.scatterAdd scatter_S50000_S800000x1_S800000_n_0_0_1 x i u),
    nullary main_cst_10 (constant S_ .f32 0x3F800000#32),
    unary main_cst_10 main_v47 (broadcastInDim S50000 ![] bcast_S_S50000),
    binary main_v46 main_v47 main_v48 maximumf,
    unary main_v48 main_v49 (broadcastInDim S50000x1 ![0] bcast_S50000_S50000x1_0),
    unary main_v49 main_v50 (broadcastInDim S50000x256 ![0, 1] bcast_S50000x1_S50000x256_0_1),
    binary main_v42 main_v50 main_v51 Host.divf,
    unary main_arg7 main_v52 (transpose S256x64 [1, 0] · transposes_S64x256_S256x64_1_0),
    binary main_v51 main_v52 main_v53 (fun l r => Host.dotGeneral dot_S50000x256_S256x64_S50000x64_1_0_0_1_n_n none l r),
    unary main_arg8 main_v54 (broadcastInDim S1x64 ![1] bcast_S64_S1x64_1),
    unary main_v54 main_v55 (broadcastInDim S50000x64 ![0, 1] bcast_S1x64_S50000x64_0_1),
    binary main_v53 main_v55 main_v56 addf,
    unary main_arg4 main_v57 (transpose S64x64 [1, 0] · transposes_S64x64_S64x64_1_0),
    binary main_arg0 main_v57 main_v58 (fun l r => Host.dotGeneral dot_S50000x64_S64x64_S50000x64_1_0_0_1_n_n none l r),
    binary main_v58 main_v56 main_v59 addf,
    unary main_arg9 main_v60 (broadcastInDim S1x64 ![1] bcast_S64_S1x64_1),
    unary main_v60 main_v61 (broadcastInDim S50000x64 ![0, 1] bcast_S1x64_S50000x64_0_1),
    binary main_v59 main_v61 main_v62 addf ]

set_option maxRecDepth 4096 in
set_option maxHeartbeats 4000000 in
/-- @main is that straight line: its two windows and the three functions' definitions unfolded at their calls,
    both sides are one chain of steps once sequencing is reassociated. -/
theorem main_eq (c : Dev nD) : main (F := F) c = seq ops := by
  simp only [main, main_part0, main_part1, fn_norm.body, fn_leaky_relu.body, fn_where.body, seq, bind_assoc, pure_bind]
  rfl

set_option maxRecDepth 8192 in
set_option maxHeartbeats 4000000 in
/-- The operations' composed term at the result buffer is the reference's term of the arguments: each
    operation's result read at its own buffer, the other buffers as they were, and the stages of the term
    are the same operations in the same order. -/
theorem out_eq (V : Valuation τ sig (Elt F)) :
    after ops V (main_v62 : DevRef τ sig)
      = Term.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  unfold Term.out Term.tail Term.nsum Term.msg Term.leaky Term.lin Term.wpos Term.norm Term.rel Term.fsrc Term.cnt
    Term.dstCol Term.wrapCol
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
theorem arg9_eq (V : Valuation τ sig (Elt F)) : after ops V (main_arg9 : DevRef τ sig) = V (main_arg9 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: one fact per operation, in order. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub ..,
    binary_bufs_sub .., nullary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., binary_bufs_sub .., unary_bufs_sub .., binary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub ..,
    ternary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., reshape_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., unary_bufs_sub .., unary_bufs_sub .., binary_bufs_sub ..⟩

/-- Every weakly fair execution of the reference terminates with its result at the reference's term of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = Term.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v62).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _)⟩)
    (run_seq scopedRefs_eq scopedSems_eq defs main (fun _ => ops) main_eq (fun _ => ops_sub) m ρ)

end Cert.ReferenceIdeal.Run

end
-- ==== Proof.RefMsg.lean ====
/-
  The reference's messages read at an index: at edge e and channel q, the activation of e's relative position
  under channel q's spatial weights and bias, times the source's feature number q / 4.
-/
import proofs.«102554_j15461882266185_1_alg».proof.Proof.RefTerm
import proofs.«102554_j15461882266185_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StackMember
import Idealize.ShloMosaic.PureOps.Ideal.Laws

noncomputable section

namespace Cert.ReferenceIdeal.Read

open Idealize.ShloMosaic Idealize.ShloMosaic.ValueIdx Cert.ReferenceIdeal
open scoped BigOperators

/-- The leaky rectifier at an index. -/
theorem leaky_apply (x : FVec Ideal S800000x256 .f32) (i : S800000x256.Idx) :
    Term.leaky (F := Ideal) x i
      = Scalar.select (Ideal.cmp .oge (x i) Cert.Spec.zero) (x i) (Cert.Spec.slope * x i) := rfl

/-- The host's square root at an index is the extended reals' square root of the element. -/
theorem hostSqrt_apply {s : Shape} {φ : FTy} (x : FVec Ideal s φ) (i : s.Idx) :
    Host.sqrt x i = Ideal.sqrt (x i) := rfl

/-- Summing an [E, 3] array along its rows leaves one entry per edge. -/
theorem red3 : S800000x3.Reduces [1] S800000 := by decide

/-- The index over edge e with row coordinate k inserted is (e, k). -/
theorem lift3 (e : Fin 800000) (k : Fin 3) : red3.lift (ix1 e) k = ix2 e k := by
  funext a
  match a with
  | ⟨0, _⟩ => rfl
  | ⟨1, _⟩ => rfl

/-- A vector made a column reads, at (e, 0), the vector at e. -/
theorem bcastCol_apply {α : Type} (h : S800000.BroadcastsInDim S800000x1 (![0] : Fin 1 → Fin S800000x1.rank))
    (x : S800000.Idx → α) (e : Fin 800000) (z : Fin 1) :
    broadcastInDim S800000x1 ![0] h x (ix2 e z) = x (ix1 e) :=
  broadcastInDim_apply ![0] h x (ix2 e z) (ix1 e) fun a => match a with | ⟨0, _⟩ => rfl

/-- The sum of the squares along a row, from the zero word. -/
theorem sumsq_apply (r : FVec Ideal S800000x3 .f32) (h' : S800000x3.ReducesTo [1] S800000) (hu : 0 < S_.numel) (e : Fin 800000) :
    Host.reduceAdd (mulf r r) (constant (F := Ideal) S_ .f32 0x00000000#32) h' hu (ix1 e) = ∑ k : Fin 3, r (ix2 e k) * r (ix2 e k) := by
  refine (hostReduceAdd_apply _ _ h' hu (ix1 e)).trans ?_
  refine (Ideal.hostReduceAdd_single h' red3 _ _ _).trans ?_
  show Ideal.ofBits .f32 0x00000000#32 + ∑ k : Fin 3, mulf r r (red3.lift (ix1 e) k) = _
  rw [Ideal.ofBits_zero_f32, zero_add]
  refine Finset.sum_congr rfl fun k _ => ?_
  rw [lift3, mulf_apply]

/-- The norm column at an edge: the square root of the sum of the squares of the row. -/
theorem norm_apply (r : FVec Ideal S800000x3 .f32) (e : Fin 800000) (z : Fin 1) :
    Term.norm (F := Ideal) r (ix2 e z) = Ideal.sqrt (∑ k : Fin 3, r (ix2 e k) * r (ix2 e k)) := by
  unfold Term.norm
  refine (hostSqrt_apply _ _).trans (congrArg Ideal.sqrt ?_)
  refine (bcastCol_apply _ _ e z).trans ?_
  exact sumsq_apply r _ _ e

/-- A column repeated along three columns reads, at (e, k), the column at (e, 0). -/
theorem bcastCol3_apply {α : Type} (h : S800000x1.BroadcastsInDim S800000x3 (![0, 1] : Fin 2 → Fin S800000x3.rank))
    (x : S800000x1.Idx → α) (e : Fin 800000) (k : Fin 3) :
    broadcastInDim S800000x3 ![0, 1] h x (ix2 e k) = x (ix2 e (0 : Fin 1)) :=
  broadcastInDim_apply ![0, 1] h x (ix2 e k) (ix2 e (0 : Fin 1)) fun a => match a with | ⟨0, _⟩ => rfl | ⟨1, _⟩ => rfl

/-- The weighted position at (e, k): the coordinate plus one over the norm plus eps. -/
theorem wpos_apply (r : FVec Ideal S800000x3 .f32) (e : Fin 800000) (k : Fin 3) :
    Term.wpos (F := Ideal) r (ix2 e k)
      = Ideal.div (r (ix2 e k) + Cert.Spec.one)
          (Ideal.sqrt (∑ k' : Fin 3, r (ix2 e k') * r (ix2 e k')) + Cert.Spec.eps) := by
  unfold Term.wpos
  refine (hostDivf_apply _ _ _).trans ?_
  refine congrArg₂ Ideal.div rfl ?_
  refine (bcastCol3_apply _ _ e k).trans ?_
  refine (addf_apply _ _ _).trans ?_
  exact congrArg₂ (· + ·) (norm_apply r e 0) rfl

/-- A one-row matrix repeated down the edges reads, at (e, q), the row at (0, q). -/
theorem bcastRow_apply {α : Type} (h : S1x256.BroadcastsInDim S800000x256 (![0, 1] : Fin 2 → Fin S800000x256.rank))
    (x : S1x256.Idx → α) (e : Fin 800000) (q : Fin 256) :
    broadcastInDim S800000x256 ![0, 1] h x (ix2 e q) = x (ix2 (0 : Fin 1) q) :=
  broadcastInDim_apply ![0, 1] h x (ix2 e q) (ix2 (0 : Fin 1) q) fun a => match a with | ⟨0, _⟩ => rfl | ⟨1, _⟩ => rfl

/-- A vector made a one-row matrix reads, at (0, q), the vector at q. -/
theorem bcastVecRow_apply {α : Type} (h : S256.BroadcastsInDim S1x256 (![1] : Fin 1 → Fin S1x256.rank))
    (x : S256.Idx → α) (z : Fin 1) (q : Fin 256) :
    broadcastInDim S1x256 ![1] h x (ix2 z q) = x (ix1 q) :=
  broadcastInDim_apply ![1] h x (ix2 z q) (ix1 q) fun a => match a with | ⟨0, _⟩ => rfl

/-- The reference's dot dimension numbers are the plain ones: rows by contraction, contraction by columns. -/
theorem dot_eq_plain : dot_S800000x3_S3x256_S800000x256_1_0_0_1_n_n = DotDims.plain 800000 3 256 := rfl

/-- The product with the transposed weights at (e, q): the sum over the three coordinates. -/
theorem dotW_apply (A : FVec Ideal S800000x3 .f32) (Wsp : FVec Ideal S256x3 .f32) (h : S256x3.Transposes [1, 0] S3x256)
    (e : Fin 800000) (q : Fin 256) :
    Host.dotGeneral (F := Ideal) dot_S800000x3_S3x256_S800000x256_1_0_0_1_n_n none A (transpose S3x256 [1, 0] Wsp h) (ix2 e q)
      = ∑ k : Fin 3, A (ix2 e k) * Wsp (ix2 q k) := by
  rw [dot_eq_plain]
  refine (StackMember.dotGeneral_plain_apply none A (transpose S3x256 [1, 0] Wsp h) e q).trans ?_
  refine Finset.sum_congr rfl fun k _ => ?_
  exact congrArg (A (ix2 e k) * ·) (transpose_ix2_apply Wsp h k q)

/-- The linear layer at (e, q). -/
theorem lin_apply (r : FVec Ideal S800000x3 .f32) (Wsp : FVec Ideal S256x3 .f32) (bsp : FVec Ideal S256 .f32)
    (e : Fin 800000) (q : Fin 256) :
    Term.lin (F := Ideal) r Wsp bsp (ix2 e q)
      = (∑ k : Fin 3, Term.wpos (F := Ideal) r (ix2 e k) * Wsp (ix2 q k)) + bsp (ix1 q) := by
  unfold Term.lin
  refine (addf_apply _ _ _).trans ?_
  refine congrArg₂ (· + ·) (dotW_apply _ Wsp _ e q) ?_
  exact (bcastRow_apply _ _ e q).trans (bcastVecRow_apply _ bsp 0 q)

/-- The activation seen as [E, 64, 4]: entry (e, a, h) is entry (e, 4 a + h). -/
theorem cast3_apply {α : Type} (hc : S800000x256.ShapeCasts S800000x64x4) (x : S800000x256.Idx → α)
    (e : Fin 800000) (a : Fin 64) (h : Fin 4) :
    shapeCast S800000x64x4 x hc (ix3 e a h)
      = x (ix2 e (⟨4 * a.val + h.val, by have := a.isLt; have := h.isLt; omega⟩ : Fin 256)) :=
  shapeCast_apply x hc _ _ (by
    rw [Shape.rowMajor_val_two, Shape.rowMajor_val_three]
    show e.val * 256 + (4 * a.val + h.val) = (e.val * 64 + a.val) * 4 + h.val
    omega)

/-- [E, 64, 4] flattened to [E, 256]: entry (e, q) is entry (e, q / 4, q % 4). -/
theorem cast2_apply {α : Type} (hc : S800000x64x4.ShapeCasts S800000x256) (x : S800000x64x4.Idx → α)
    (e : Fin 800000) (q : Fin 256) :
    shapeCast S800000x256 x hc (ix2 e q)
      = x (ix3 e (⟨q.val / 4, by have := q.isLt; omega⟩ : Fin 64) (⟨q.val % 4, Nat.mod_lt _ (by decide)⟩ : Fin 4)) :=
  shapeCast_apply x hc _ _ (by
    rw [Shape.rowMajor_val_three, Shape.rowMajor_val_two]
    show (e.val * 64 + q.val / 4) * 4 + q.val % 4 = e.val * 256 + q.val
    omega)

/-- The features repeated along a new last axis of four: entry (e, a, h) is feature (e, a). -/
theorem bcastFeat_apply {α : Type} (h1 : S800000x64.BroadcastsInDim S800000x64x1 (![0, 1] : Fin 2 → Fin S800000x64x1.rank))
    (h2 : S800000x64x1.BroadcastsInDim S800000x64x4 (![0, 1, 2] : Fin 3 → Fin S800000x64x4.rank))
    (x : S800000x64.Idx → α) (e : Fin 800000) (a : Fin 64) (h : Fin 4) :
    broadcastInDim S800000x64x4 ![0, 1, 2] h2 (broadcastInDim S800000x64x1 ![0, 1] h1 x) (ix3 e a h) = x (ix2 e a) :=
  (broadcastInDim_apply ![0, 1, 2] h2 _ (ix3 e a h) (ix3 e a (0 : Fin 1))
      fun c => match c with | ⟨0, _⟩ => rfl | ⟨1, _⟩ => rfl | ⟨2, _⟩ => rfl).trans
    (broadcastInDim_apply ![0, 1] h1 x (ix3 e a (0 : Fin 1)) (ix2 e a)
      fun c => match c with | ⟨0, _⟩ => rfl | ⟨1, _⟩ => rfl)

/-- The messages at (e, q): the activation there times the source's feature number q / 4. -/
theorem msg_apply (r : FVec Ideal S800000x3 .f32) (fs : FVec Ideal S800000x64 .f32) (Wsp : FVec Ideal S256x3 .f32)
    (bsp : FVec Ideal S256 .f32) (e : Fin 800000) (q : Fin 256) :
    Term.msg (F := Ideal) r fs Wsp bsp (ix2 e q)
      = Term.leaky (F := Ideal) (Term.lin (F := Ideal) r Wsp bsp) (ix2 e q)
          * fs (ix2 e (⟨q.val / 4, by have := q.isLt; omega⟩ : Fin 64)) := by
  unfold Term.msg
  refine (cast2_apply _ _ e q).trans ?_
  refine (mulf_apply _ _ _).trans ?_
  refine congrArg₂ (· * ·) ?_ (bcastFeat_apply _ _ fs e _ _)
  refine (cast3_apply _ _ e _ _).trans ?_
  refine congrArg (Term.leaky (F := Ideal) (Term.lin (F := Ideal) r Wsp bsp)) ?_
  refine congrArg (fun b : Fin 256 => ix2 e b) (Fin.ext ?_)
  show 4 * (q.val / 4) + q.val % 4 = q.val
  omega

/-- The activation of the reference at (e, q) is the activation of the row. -/
theorem act_apply (r : FVec Ideal S800000x3 .f32) (Wsp : FVec Ideal S256x3 .f32) (bsp : FVec Ideal S256 .f32)
    (e : Fin 800000) (q : Fin 256) :
    Term.leaky (F := Ideal) (Term.lin (F := Ideal) r Wsp bsp) (ix2 e q)
      = Cert.Spec.act (Cert.Spec.rowE r e) (fun k => Wsp (ix2 q k)) (bsp (ix1 q)) := by
  have hl : Term.lin (F := Ideal) r Wsp bsp (ix2 e q)
      = (∑ k : Fin 3, Ideal.div (Cert.Spec.rowE r e k + Cert.Spec.one)
          (Ideal.sqrt (∑ k' : Fin 3, Cert.Spec.rowE r e k' * Cert.Spec.rowE r e k') + Cert.Spec.eps) * Wsp (ix2 q k)) + bsp (ix1 q) := by
    refine (lin_apply r Wsp bsp e q).trans ?_
    refine congrArg (· + bsp (ix1 q)) ?_
    refine Finset.sum_congr rfl fun k _ => ?_
    exact congrArg (· * Wsp (ix2 q k)) (wpos_apply r e k)
  rw [leaky_apply, hl]
  rfl

/-- The reference's message array is the messages' function of the relative positions, the source features, the
    spatial weights and their bias. -/
theorem msg_eq (r : FVec Ideal S800000x3 .f32) (fs : FVec Ideal S800000x64 .f32) (Wsp : FVec Ideal S256x3 .f32) (bsp : FVec Ideal S256 .f32) :
    Term.msg (F := Ideal) r fs Wsp bsp = Cert.Spec.msgSpec r fs Wsp bsp := by
  funext i
  obtain ⟨e, q, rfl⟩ : ∃ (e : Fin 800000) (q : Fin 256), i = ix2 e q := ⟨i 0, i 1, eq_ix2 i⟩
  refine (msg_apply r fs Wsp bsp e q).trans ?_
  rw [act_apply]
  rfl

end Cert.ReferenceIdeal.Read

end
-- ==== Proof.RefTail.lean ====
/-
  The reference's last stage read at an index: at node n and output channel o, the self projection of n's
  features plus the neighbour projection of n's summed messages divided by max(count, 1), plus the two biases.
-/
import proofs.«102554_j15461882266185_1_alg».proof.Proof.RefTerm
import proofs.«102554_j15461882266185_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ReadTail

open Idealize.ShloMosaic Idealize.ShloMosaic.ValueIdx Cert.ReferenceIdeal
open scoped BigOperators

/-! ## The two products read at an index -/

/-- The self projection's left operand index on its free axis is the output's row. -/
theorem lhs_self_0 (j : S50000x64.Idx) (k : dot_S50000x64_S64x64_S50000x64_1_0_0_1_n_n.contr.Idx) :
    (dot_S50000x64_S64x64_S50000x64_1_0_0_1_n_n.lhsIdx j k 0).val = (j 0).val := rfl
/-- … and on its contracted axis the contraction's coordinate. -/
theorem lhs_self_1 (j : S50000x64.Idx) (k : dot_S50000x64_S64x64_S50000x64_1_0_0_1_n_n.contr.Idx) :
    (dot_S50000x64_S64x64_S50000x64_1_0_0_1_n_n.lhsIdx j k 1).val = (k ⟨0, by decide⟩).val := rfl
/-- The self projection's right operand index on its contracted axis is the contraction's coordinate … -/
theorem rhs_self_0 (j : S50000x64.Idx) (k : dot_S50000x64_S64x64_S50000x64_1_0_0_1_n_n.contr.Idx) :
    (dot_S50000x64_S64x64_S50000x64_1_0_0_1_n_n.rhsIdx j k 0).val = (k ⟨0, by decide⟩).val := rfl
/-- … and on its free axis the output's column. -/
theorem rhs_self_1 (j : S50000x64.Idx) (k : dot_S50000x64_S64x64_S50000x64_1_0_0_1_n_n.contr.Idx) :
    (dot_S50000x64_S64x64_S50000x64_1_0_0_1_n_n.rhsIdx j k 1).val = (j 1).val := rfl

/-- The self projection at (n, o): the sum over the 64 features of the row's entry times the operand's. -/
theorem dot_self_apply (A : FVec Ideal S50000x64 .f32) (B : FVec Ideal S64x64 .f32) (n : Fin 50000) (o : Fin 64) :
    Host.dotGeneral dot_S50000x64_S64x64_S50000x64_1_0_0_1_n_n none A B (ix2 n o) = ∑ c : Fin 64, A (ix2 n c) * B (ix2 c o) := by
  show FloatOps.dotGeneral _ none _ A B (ix2 n o) = _
  rw [Ideal.dotGeneral_apply, ← Equiv.sum_comp (contrEquiv1 dot_S50000x64_S64x64_S50000x64_1_0_0_1_n_n 64 rfl rfl).symm]
  refine Finset.sum_congr rfl fun c _ => ?_
  have hc := contrEquiv1_symm_val dot_S50000x64_S64x64_S50000x64_1_0_0_1_n_n 64 rfl rfl c
  have hl : dot_S50000x64_S64x64_S50000x64_1_0_0_1_n_n.lhsIdx (ix2 n o)
      ((contrEquiv1 dot_S50000x64_S64x64_S50000x64_1_0_0_1_n_n 64 rfl rfl).symm c) = ix2 n c := by
    funext ax; apply Fin.ext
    match ax with
    | ⟨0, _⟩ => exact lhs_self_0 _ _
    | ⟨1, _⟩ => exact (lhs_self_1 _ _).trans hc
  have hr : dot_S50000x64_S64x64_S50000x64_1_0_0_1_n_n.rhsIdx (ix2 n o)
      ((contrEquiv1 dot_S50000x64_S64x64_S50000x64_1_0_0_1_n_n 64 rfl rfl).symm c) = ix2 c o := by
    funext ax; apply Fin.ext
    match ax with
    | ⟨0, _⟩ => exact (rhs_self_0 _ _).trans hc
    | ⟨1, _⟩ => exact rhs_self_1 _ _
  rw [hl, hr]

/-- The neighbour projection's left operand index on its free axis is the output's row. -/
theorem lhs_nbr_0 (j : S50000x64.Idx) (k : dot_S50000x256_S256x64_S50000x64_1_0_0_1_n_n.contr.Idx) :
    (dot_S50000x256_S256x64_S50000x64_1_0_0_1_n_n.lhsIdx j k 0).val = (j 0).val := rfl
/-- … and on its contracted axis the contraction's coordinate. -/
theorem lhs_nbr_1 (j : S50000x64.Idx) (k : dot_S50000x256_S256x64_S50000x64_1_0_0_1_n_n.contr.Idx) :
    (dot_S50000x256_S256x64_S50000x64_1_0_0_1_n_n.lhsIdx j k 1).val = (k ⟨0, by decide⟩).val := rfl
/-- The neighbour projection's right operand index on its contracted axis is the contraction's coordinate … -/
theorem rhs_nbr_0 (j : S50000x64.Idx) (k : dot_S50000x256_S256x64_S50000x64_1_0_0_1_n_n.contr.Idx) :
    (dot_S50000x256_S256x64_S50000x64_1_0_0_1_n_n.rhsIdx j k 0).val = (k ⟨0, by decide⟩).val := rfl
/-- … and on its free axis the output's column. -/
theorem rhs_nbr_1 (j : S50000x64.Idx) (k : dot_S50000x256_S256x64_S50000x64_1_0_0_1_n_n.contr.Idx) :
    (dot_S50000x256_S256x64_S50000x64_1_0_0_1_n_n.rhsIdx j k 1).val = (j 1).val := rfl

/-- The neighbour projection at (n, o): the sum over the 256 hidden channels of the row's entry times the operand's. -/
theorem dot_nbr_apply (A : FVec Ideal S50000x256 .f32) (B : FVec Ideal S256x64 .f32) (n : Fin 50000) (o : Fin 64) :
    Host.dotGeneral dot_S50000x256_S256x64_S50000x64_1_0_0_1_n_n none A B (ix2 n o) = ∑ c : Fin 256, A (ix2 n c) * B (ix2 c o) := by
  show FloatOps.dotGeneral _ none _ A B (ix2 n o) = _
  rw [Ideal.dotGeneral_apply, ← Equiv.sum_comp (contrEquiv1 dot_S50000x256_S256x64_S50000x64_1_0_0_1_n_n 256 rfl rfl).symm]
  refine Finset.sum_congr rfl fun c _ => ?_
  have hc := contrEquiv1_symm_val dot_S50000x256_S256x64_S50000x64_1_0_0_1_n_n 256 rfl rfl c
  have hl : dot_S50000x256_S256x64_S50000x64_1_0_0_1_n_n.lhsIdx (ix2 n o)
      ((contrEquiv1 dot_S50000x256_S256x64_S50000x64_1_0_0_1_n_n 256 rfl rfl).symm c) = ix2 n c := by
    funext ax; apply Fin.ext
    match ax with
    | ⟨0, _⟩ => exact lhs_nbr_0 _ _
    | ⟨1, _⟩ => exact (lhs_nbr_1 _ _).trans hc
  have hr : dot_S50000x256_S256x64_S50000x64_1_0_0_1_n_n.rhsIdx (ix2 n o)
      ((contrEquiv1 dot_S50000x256_S256x64_S50000x64_1_0_0_1_n_n 256 rfl rfl).symm c) = ix2 c o := by
    funext ax; apply Fin.ext
    match ax with
    | ⟨0, _⟩ => exact (rhs_nbr_0 _ _).trans hc
    | ⟨1, _⟩ => exact rhs_nbr_1 _ _
  rw [hl, hr]

/-! ## The layout operations read at an index -/

/-- A vector of 64 made a row and repeated down the 50000 rows reads, at (n, o), the vector at o. -/
theorem row_bcast_apply (h1 : S64.BroadcastsInDim S1x64 (![1] : Fin 1 → Fin S1x64.rank))
    (h2 : S1x64.BroadcastsInDim S50000x64 (![0, 1] : Fin 2 → Fin S50000x64.rank)) (v : FVec Ideal S64 .f32)
    (n : Fin 50000) (o : Fin 64) :
    broadcastInDim S50000x64 ![0, 1] h2 (broadcastInDim S1x64 ![1] h1 v) (ix2 n o) = v (ix1 o) := by
  rw [broadcastInDim_apply ![0, 1] h2 _ (ix2 n o) (ix2 (0 : Fin 1) o) (fun a => by
    match a with
    | ⟨0, _⟩ => rfl
    | ⟨1, _⟩ => rfl)]
  exact broadcastInDim_apply ![1] h1 v (ix2 (0 : Fin 1) o) (ix1 o) (fun a => by
    match a with
    | ⟨0, _⟩ => rfl)

/-- A vector of 50000 made a column and repeated along the 256 columns reads, at (n, j), the vector at n. -/
theorem col_bcast_apply (h1 : S50000.BroadcastsInDim S50000x1 (![0] : Fin 1 → Fin S50000x1.rank))
    (h2 : S50000x1.BroadcastsInDim S50000x256 (![0, 1] : Fin 2 → Fin S50000x256.rank)) (v : FVec Ideal S50000 .f32)
    (n : Fin 50000) (j : Fin 256) :
    broadcastInDim S50000x256 ![0, 1] h2 (broadcastInDim S50000x1 ![0] h1 v) (ix2 n j) = v (ix1 n) := by
  rw [broadcastInDim_apply ![0, 1] h2 _ (ix2 n j) (ix2 n (0 : Fin 1)) (fun a => by
    match a with
    | ⟨0, _⟩ => rfl
    | ⟨1, _⟩ => rfl)]
  exact broadcastInDim_apply ![0] h1 v (ix2 n (0 : Fin 1)) (ix1 n) (fun a => by
    match a with
    | ⟨0, _⟩ => rfl)

/-- The count against the word for one, at n: the larger of the count and one. -/
theorem max_one_apply (h : S_.BroadcastsInDim S50000 (![] : Fin 0 → Fin S50000.rank)) (ct : FVec Ideal S50000 .f32) (n : Fin 50000) :
    maximumf ct (broadcastInDim S50000 ![] h (constant (F := Ideal) S_ .f32 0x3F800000#32)) (ix1 n) = max (ct (ix1 n)) Cert.Spec.one := by
  rw [maximumf_apply, broadcastInDim_scalar_apply, constant_apply]

/-! ## The last stage at an index -/

/-- The reference's last stage at node n and channel o. -/
theorem tail_apply (ns : FVec Ideal S50000x256 .f32) (ct : FVec Ideal S50000 .f32) (feat : FVec Ideal S50000x64 .f32) (Wn : FVec Ideal S64x256 .f32)
    (bn : FVec Ideal S64 .f32) (Ws : FVec Ideal S64x64 .f32) (bias : FVec Ideal S64 .f32) (n : Fin 50000) (o : Fin 64) :
    Term.tail (F := Ideal) ns ct feat Wn bn Ws bias (ix2 n o)
      = Cert.Spec.nodeRowR (Cert.Spec.rowN ns n) (ct (ix1 n)) (Cert.Spec.rowN feat n) (fun j => Wn (ix2 o j)) (bn (ix1 o))
          (fun k => Ws (ix2 o k)) (bias (ix1 o)) := by
  unfold Term.tail Cert.Spec.nodeRowR
  rw [addf_apply, addf_apply, addf_apply, dot_self_apply, dot_nbr_apply, row_bcast_apply, row_bcast_apply]
  refine congrArg₂ (· + ·) (congrArg₂ (· + ·) (Finset.sum_congr rfl fun c _ => ?_)
    (congrArg₂ (· + ·) (Finset.sum_congr rfl fun c _ => ?_) rfl)) rfl
  · rw [transpose_ix2_apply Ws _ c o]
  · rw [hostDivf_apply, col_bcast_apply _ _ _ n c, max_one_apply _ ct n, transpose_ix2_apply Wn _ c o]

/-- The reference's result is the output's function of the summed messages, the counts, the features, the two
    projections and the two biases. -/
theorem tail_eq (ns : FVec Ideal S50000x256 .f32) (ct : FVec Ideal S50000 .f32) (feat : FVec Ideal S50000x64 .f32) (Wn : FVec Ideal S64x256 .f32)
    (bn : FVec Ideal S64 .f32) (Ws : FVec Ideal S64x64 .f32) (bias : FVec Ideal S64 .f32) :
    Term.tail (F := Ideal) ns ct feat Wn bn Ws bias = Cert.Spec.outSpec ns ct feat Wn bn Ws bias := by
  funext i
  obtain ⟨n, o, rfl⟩ : ∃ (n : Fin 50000) (o : Fin 64), i = ix2 n o := ⟨_, _, eq_ix2 i⟩
  exact tail_apply ns ct feat Wn bn Ws bias n o

end Cert.ReferenceIdeal.ReadTail

end
-- ==== Proof.lean ====
/-
  The certificate: a two-stage graph convolution (an edge stage and a node stage around gathers and a
  scatter-add) equals its plain reference over the extended reals.

  Both programs gather the same relative positions and source features and scatter-add by the same
  destination indices, so those host operations are carried as they are.  Between them, at edge e and channel q
  both compute leaky(sum_k ((r_k + 1) / (|r| + eps)) w_k(q) + b(q)) times the source's feature q / 4 — the
  kernel through a product with a 0/1 repeat matrix, transposed weights and a bias row, the reference through
  reshapes and broadcasts — and at node n and channel o both compute
  (sum_k feat(n,k) Ws(o,k) + (sum_j mean(n,j) Wn(o,j) + bn(o))) + bias(o), where the kernel multiplies the summed
  messages by 1 / max(count, 1) and the reference divides by max(count, 1): off zero the quotient of extended
  reals is the product with the inverse, and max(count, 1) is at least one, so no finiteness is used.

  The kernel's result array is read off its run region by region: each region's write-backs cover its array with
  blocks that are restrictions of one whole-array function of the arrays the region found; the host stretches
  between are read as terms of the arguments.  The reference's run is a straight line of host operations once
  the three functions it calls are written out.
-/
import proofs.«102554_j15461882266185_1_alg».proof.Defs
import proofs.«102554_j15461882266185_1_alg».proof.Proof.Gen.Kernel
import proofs.«102554_j15461882266185_1_alg».proof.Proof.Gen.Kernel.Skeleton
import proofs.«102554_j15461882266185_1_alg».proof.Proof.Gen.Kernel.Launch
import proofs.«102554_j15461882266185_1_alg».proof.Proof.Gen.Kernel.Points
import proofs.«102554_j15461882266185_1_alg».proof.Proof.Gen.Kernel.Frame
import proofs.«102554_j15461882266185_1_alg».proof.Proof.Gen.KernelIdeal
import proofs.«102554_j15461882266185_1_alg».proof.Proof.Gen.KernelIdeal.Skeleton
import proofs.«102554_j15461882266185_1_alg».proof.Proof.Gen.KernelIdeal.Launch
import proofs.«102554_j15461882266185_1_alg».proof.Proof.Gen.KernelIdeal.Points
import proofs.«102554_j15461882266185_1_alg».proof.Proof.Gen.KernelIdeal.Frame
import proofs.«102554_j15461882266185_1_alg».proof.Proof.Gen.ReferenceIdeal
import proofs.«102554_j15461882266185_1_alg».proof.Proof.Gen.Pre_finite_inputs
import proofs.«102554_j15461882266185_1_alg».proof.Proof.KRun
import proofs.«102554_j15461882266185_1_alg».proof.Proof.EdgeValue
import proofs.«102554_j15461882266185_1_alg».proof.Proof.NodeValue
import proofs.«102554_j15461882266185_1_alg».proof.Proof.HostVals
import proofs.«102554_j15461882266185_1_alg».proof.Proof.Layout
import proofs.«102554_j15461882266185_1_alg».proof.Proof.RefRun
import proofs.«102554_j15461882266185_1_alg».proof.Proof.RefMsg
import proofs.«102554_j15461882266185_1_alg».proof.Proof.RefTail
import Idealize.ShloMosaic.Adequacy
import Idealize.ShloMosaic.Init

noncomputable section

namespace Cert.Proof

open Idealize.ShloMosaic Idealize.ShloMosaic.TcCoe Idealize.SL.Sem

/-! ## The shared host operations are the same functions in both programs -/

theorem rel_eq (pos : FVec Ideal Cert.KernelIdeal.S50000x3 .f32) (src dst : IVec Cert.KernelIdeal.S800000 32) :
    Cert.ReferenceIdeal.Term.rel (F := Ideal) pos src dst = Cert.KernelIdeal.Term.rel (F := Ideal) pos src dst := rfl
theorem fsrc_eq (feat : FVec Ideal Cert.KernelIdeal.S50000x64 .f32) (src : IVec Cert.KernelIdeal.S800000 32) :
    Cert.ReferenceIdeal.Term.fsrc (F := Ideal) feat src = Cert.KernelIdeal.Term.fsrc (F := Ideal) feat src := rfl
theorem nsum_eq (dst : IVec Cert.KernelIdeal.S800000 32) (msg : FVec Ideal Cert.KernelIdeal.S800000x256 .f32) :
    Cert.ReferenceIdeal.Term.nsum (F := Ideal) dst msg = Cert.KernelIdeal.Term.nsum (F := Ideal) dst msg := rfl
theorem cnt_eq (dst : IVec Cert.KernelIdeal.S800000 32) :
    Cert.ReferenceIdeal.Term.cnt (F := Ideal) dst = Cert.KernelIdeal.Term.cnt (F := Ideal) dst := rfl

/-! ## The common value -/

/-- The result both programs compute, as a function of the ten argument arrays: the output's function of the
    messages' function summed by destination. -/
def value (feat : FVec Ideal Cert.KernelIdeal.S50000x64 .f32) (pos : FVec Ideal Cert.KernelIdeal.S50000x3 .f32)
    (src dst : IVec Cert.KernelIdeal.S800000 32) (Ws : FVec Ideal Cert.KernelIdeal.S64x64 .f32) (Wsp : FVec Ideal Cert.KernelIdeal.S256x3 .f32)
    (bsp : FVec Ideal Cert.KernelIdeal.S256 .f32) (Wn : FVec Ideal Cert.KernelIdeal.S64x256 .f32) (bn : FVec Ideal Cert.KernelIdeal.S64 .f32)
    (bias : FVec Ideal Cert.KernelIdeal.S64 .f32) : FVec Ideal Cert.KernelIdeal.S50000x64 .f32 :=
  Cert.Spec.outSpec
    (Cert.KernelIdeal.Term.nsum dst
      (Cert.Spec.msgSpec (Cert.KernelIdeal.Term.rel pos src dst) (Cert.KernelIdeal.Term.fsrc feat src) Wsp bsp))
    (Cert.KernelIdeal.Term.cnt (F := Ideal) dst) feat Wn bn Ws bias

section Kernel

open Cert.KernelIdeal Cert.KernelIdeal.Gen

variable (m : (ℓ : Loc nD τ sig) → Buf (Elt Ideal) ℓ) (ρ : Dev nD → PrngReg)

/-- The message array the edge region leaves is the messages' function of the gathered arrays. -/
theorem kernel_msg (c : Dev nD) :
    (W2 m ρ c (Proc.devRef .tc main_v32) : FVec Ideal S800000x256 .f32)
      = Cert.Spec.msgSpec
          (Term.rel (m ((c : Thread nD τ).loc main_arg1)) (m ((c : Thread nD τ).loc main_arg2)) (m ((c : Thread nD τ).loc main_arg3)))
          (Term.fsrc (m ((c : Thread nD τ).loc main_arg0)) (m ((c : Thread nD τ).loc main_arg2)))
          (m ((c : Thread nD τ).loc main_arg5)) (m ((c : Thread nD τ).loc main_arg6)) := by
  refine (W2_arr m ρ c 5).trans ?_
  refine (Cert.KernelIdeal.EdgeValue.arr_eq (V1 m ρ) c).trans ?_
  rw [Cert.KernelIdeal.HostVals.v14, Cert.KernelIdeal.HostVals.v21, Cert.KernelIdeal.HostVals.v22,
    Cert.KernelIdeal.HostVals.v23, Cert.KernelIdeal.HostVals.v31]
  exact Cert.KernelIdeal.Layout.edge_eq _ _ _ _

/-- The result array the node region leaves is the common value of the arguments. -/
theorem kernel_out (c : Dev nD) :
    (W4 m ρ c (Proc.devRef .tc main_v45) : FVec Ideal S50000x64 .f32)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W4_arr m ρ c 7).trans ?_
  refine (Cert.KernelIdeal.NodeValue.arr_eq (V3 m ρ) c).trans ?_
  rw [Cert.KernelIdeal.HostVals.v35, Cert.KernelIdeal.HostVals.v40, Cert.KernelIdeal.HostVals.a0, Cert.KernelIdeal.HostVals.v41,
    Cert.KernelIdeal.HostVals.v42, Cert.KernelIdeal.HostVals.v43, Cert.KernelIdeal.HostVals.v44, kernel_msg m ρ c]
  exact Cert.KernelIdeal.Layout.node_eq _ _ _ _ _ _ _

end Kernel

/-- The reference's term is the common value. -/
theorem reference_out (feat : FVec Ideal Cert.ReferenceIdeal.S50000x64 .f32) (pos : FVec Ideal Cert.ReferenceIdeal.S50000x3 .f32)
    (src dst : IVec Cert.ReferenceIdeal.S800000 32) (Ws : FVec Ideal Cert.ReferenceIdeal.S64x64 .f32) (Wsp : FVec Ideal Cert.ReferenceIdeal.S256x3 .f32)
    (bsp : FVec Ideal Cert.ReferenceIdeal.S256 .f32) (Wn : FVec Ideal Cert.ReferenceIdeal.S64x256 .f32) (bn : FVec Ideal Cert.ReferenceIdeal.S64 .f32)
    (bias : FVec Ideal Cert.ReferenceIdeal.S64 .f32) :
    Cert.ReferenceIdeal.Term.out (F := Ideal) feat pos src dst Ws Wsp bsp Wn bn bias = value feat pos src dst Ws Wsp bsp Wn bn bias := by
  unfold Cert.ReferenceIdeal.Term.out value
  rw [Cert.ReferenceIdeal.Read.msg_eq, Cert.ReferenceIdeal.ReadTail.tail_eq, rel_eq, fsrc_eq, nsum_eq, cnt_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Run.run (F := Ideal) m ρ)

/-- Both runs end with the result at the common value of arguments that agree. -/
theorem algebraic : Cert.algebraic_KernelIdeal_ReferenceIdeal := by
  intro m ρ m' ρ' _ hagree
  refine ⟨fun c => value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun _ h c => ⟨(h c).1.trans (kernel_out m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Run.run (F := Ideal) m' ρ')
    obtain ⟨h0, h1, h2, h3, h4, h5, h6, h7, h8, h9⟩ := hagree c
    rw [h0, h1, h2, h3, h4, h5, h6, h7, h8, h9]
    exact reference_out _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
